-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S128x2 : Shape := ⟨2, ![128, 2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128 .f32) (main_arg4 : FVec F S128x2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S128x2 : Shape := ⟨2, ![128, 2]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S100000x1 : Shape := ⟨2, ![100000, 1]⟩
abbrev S2000x256 : Shape := ⟨2, ![2000, 256]⟩
abbrev S2000x128 : Shape := ⟨2, ![2000, 128]⟩
abbrev S2000x1 : Shape := ⟨2, ![2000, 1]⟩
abbrev S256x128 : Shape := ⟨2, ![256, 128]⟩
abbrev S2000x2 : Shape := ⟨2, ![2000, 2]⟩
abbrev S_ : Shape := ⟨0, ![]⟩
abbrev S1600000x1 : Shape := ⟨2, ![1600000, 1]⟩
abbrev S10000x1 : Shape := ⟨2, ![10000, 1]⟩
abbrev S1600000x128 : Shape := ⟨2, ![1600000, 128]⟩
abbrev S10000x128 : Shape := ⟨2, ![10000, 128]⟩

abbrev nBuf : Space → Nat
  | .hbm => 64
  | .vmem => 33
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S128x2, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1x128, .f32⟩
  | .hbm, ⟨10, _⟩ => ⟨S100000x128, .f32⟩
  | .hbm, ⟨11, _⟩ => ⟨S100000x1, .f32⟩
  | .hbm, ⟨12, _⟩ => ⟨S100000x1, .f32⟩
  | .hbm, ⟨13, _⟩ => ⟨S100000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x1, .f32⟩
  | .hbm, ⟨32, _⟩ => ⟨S1600000x1, .f32⟩
  | .hbm, ⟨33, _⟩ => ⟨S_, .f32⟩
  | .hbm, ⟨34, _⟩ => ⟨S100000x1, .f32⟩
  | .hbm, ⟨35, _⟩ => ⟨S1600000x1, .i32⟩
  | .hbm, ⟨36, _⟩ => ⟨S100000x1, .f32⟩
  | .hbm, ⟨37, _⟩ => ⟨S100000x1, .f32⟩
  | .hbm, ⟨38, _⟩ => ⟨S100000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x1, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S128x256, .f32⟩
  | .local _ .vmem, ⟨3, _⟩ => ⟨S1x128, .f32⟩
  | .local _ .vmem, ⟨4, _⟩ => ⟨S128x2, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S10000x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S10000x1, .f32⟩
  | .local _ .vmem, ⟨22, _⟩ => ⟨S10000x1, .f32⟩
  | .local _ .vmem, ⟨23, _⟩ => ⟨S10000x128, .f32⟩
  | .local _ .vmem, ⟨24, _⟩ => ⟨S10000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S128x2_S128x2_0_0 : ∀ a, (![0, 0] : Fin 2 → Nat) a + S128x2.size a ≤ S128x2.size a
  h_S128x2 : 0 < S128x2.numel
  slices_S2000x2_o0_0_S2000x1 : S2000x2.Slices ![0, 0] S2000x1
  slices_S2000x2_o0_1_S2000x1 : S2000x2.Slices ![0, 1] S2000x1
  inb_S2000x1_S2000x1_0_0 : ∀ a, (![0, 0] : Fin 2 → Nat) a + S2000x1.size a ≤ S2000x1.size a
  h_S2000x1 : 0 < S2000x1.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bcast_S_S100000x1 : S_.BroadcastsInDim S100000x1 (![] : Fin 0 → Fin S100000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  bcast_S_S100000x128 : S_.BroadcastsInDim S100000x128 (![] : Fin 0 → Fin S100000x128.rank)
  shapeCasts_S2000x128_S2000x128 : S2000x128.ShapeCasts S2000x128
  shapeCasts_S2000x1_S2000x1 : S2000x1.ShapeCasts S2000x1
  broadcasts_S2000x1_S2000x128 : S2000x1.Broadcasts S2000x128
  dot_S2000x256_S256x128_S2000x128_1_0_0_1_n_n_wf : DotDims.WF S2000x256 S256x128 S2000x128 [1] [0] [0] [1] [] []
  dot_S2000x128_S128x2_S2000x2_1_0_0_1_n_n_wf : DotDims.WF S2000x128 S128x2 S2000x2 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S128x2.size a
  hwx0_3 : ∀ i : grid0.Coords, EltTy.bits .f32 = 32 ∨ (Rect.block (s := S128x2) S128x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S100000x1.size a
  hwx0_6 : ∀ i : grid0.Coords, EltTy.bits .f32 = 32 ∨ (Rect.block (s := S100000x1) S2000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S1600000x1.size a
  hwx1_0 : ∀ i : grid1.Coords, EltTy.bits .f32 = 32 ∨ (Rect.block (s := S1600000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1600000x1.size a
  hwx1_1 : ∀ i : grid1.Coords, EltTy.bits .f32 = 32 ∨ (Rect.block (s := S1600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S1600000x1.size a
  hwx1_2 : ∀ i : grid1.Coords, EltTy.bits .f32 = 32 ∨ (Rect.block (s := S1600000x1) S10000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .f32 = 32 ∨ (Rect.block (s := S1600000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1600000x1.size a
  hwx2_1 : ∀ i : grid2.Coords, EltTy.bits .f32 = 32 ∨ (Rect.block (s := S1600000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S1600000x128.size a
  hwx2_2 : ∀ i : grid2.Coords, EltTy.bits .f32 = 32 ∨ (Rect.block (s := S1600000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S2000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S2000x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_3) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S128x2 : Shape := ⟨2, ![128, 2]⟩
abbrev S1x1600000 : Shape := ⟨2, ![1, 1600000]⟩
abbrev S1600000 : Shape := ⟨1, ![1600000]⟩
abbrev S256x128 : Shape := ⟨2, ![256, 128]⟩
abbrev S100000x128 : Shape := ⟨2, ![100000, 128]⟩
abbrev S1x128 : Shape := ⟨2, ![1, 128]⟩
abbrev S100000x2 : Shape := ⟨2, ![100000, 2]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S128x2, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S256x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S100000x2, .f32⟩
  | .hbm, ⟨15, _⟩ => ⟨S100000x1, .f32⟩
  | .hbm, ⟨16, _⟩ => ⟨S100000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x1, .f32⟩
  | .hbm, ⟨35, _⟩ => ⟨S1600000x1, .f32⟩
  | .hbm, ⟨36, _⟩ => ⟨S_, .f32⟩
  | .hbm, ⟨37, _⟩ => ⟨S_, .f32⟩
  | .hbm, ⟨38, _⟩ => ⟨S1600000x1, .f32⟩
  | .hbm, ⟨39, _⟩ => ⟨S1600000x1, .i1⟩
  | .hbm, ⟨40, _⟩ => ⟨S_, .f32⟩
  | .hbm, ⟨41, _⟩ => ⟨S1600000x1, .f32⟩
  | .hbm, ⟨42, _⟩ => ⟨S1600000x1, .f32⟩
  | .hbm, ⟨43, _⟩ => ⟨S1600000x1, .f32⟩
  | .hbm, ⟨44, _⟩ => ⟨S1600000x1, .f32⟩
  | .hbm, ⟨45, _⟩ => ⟨S100000x1, .f32⟩
  | .hbm, ⟨46, _⟩ => ⟨S_, .f32⟩
  | .hbm, ⟨47, _⟩ => ⟨S_, .f32⟩
  | .hbm, ⟨48, _⟩ => ⟨S100000x1, .f32⟩
  | .hbm, ⟨49, _⟩ => ⟨S100000x1, .i1⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x1, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S1600000x1, .i32⟩
  | .hbm, ⟨58, _⟩ => ⟨S100000x1, .f32⟩
  | .hbm, ⟨59, _⟩ => ⟨S100000x1, .f32⟩
  | .hbm, ⟨60, _⟩ => ⟨S100000x1, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x1, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x2_S100000x1_0_0 : S100000x2.Slices ![0, 0] S100000x1
  slices_S100000x2_S100000x1_0_1 : S100000x2.Slices ![0, 1] S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S100000x256_S256x128_S100000x128_1_0_0_1_n_n_wf : DotDims.WF S100000x256 S256x128 S100000x128 [1] [0] [0] [1] [] []
  dot_S100000x128_S128x2_S100000x2_1_0_0_1_n_n_wf : DotDims.WF S100000x128 S128x2 S100000x2 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The graph-attention layer as ONE composition of whole-array functions, stated once over the reference's
  shapes and dimension records, so that both programs' results can be named by the same term.

  Notation: N = 100000 nodes, E = 1600000 edges, C = 128 channels, K = 256 input features.  `tar` and `src`
  are the two rows of the edge list.  With  feat = x · Wᵀ + b,  (e_src | e_tar) = feat · att,
    e(k)      = exp (leaky (e_src[src k] + e_tar[tar k]))          for an edge k,
    e_self(n) = exp (leaky (e_src n + e_tar n))                    for a node n,
    e_sum(n)  = (∑ over edges k with tar k = n of e(k)) + e_self(n),
    out(n, ·) = (∑ over edges k with tar k = n of feat(src k, ·) · e(k) / e_sum(tar k)) + feat(n, ·) · e_self(n) / e_sum(n),
  where leaky s = s when s ≥ 0 and 0.2 · s otherwise, a gather reads a row at an index normalised by adding N to a
  negative word, and a sum over the edges of a node is a scatter-add onto a zero array.
-/
import proofs.«139192_j52871047413956_1_alg».proof.ReferenceIdeal

noncomputable section

namespace Cert.ReferenceIdeal.Spec

open Idealize.ShloMosaic Cert.ReferenceIdeal

variable {F : FTy → Type} [FloatOps F] [Facts]
open Facts₀ Facts

/-! ## The edge list -/

/-- Row 0 of the edge list: the target node of every edge. -/
def tarOf (ei : IVec S2x1600000 32) : IVec S1600000 32 :=
  shapeCast S1600000 (extractStridedSlice S1x1600000 ![0, 0] ei slices_S2x1600000_S1x1600000_0_0) shapeCasts_S1x1600000_S1600000

/-- Row 1 of the edge list: the source node of every edge. -/
def srcOf (ei : IVec S2x1600000 32) : IVec S1600000 32 :=
  shapeCast S1600000 (extractStridedSlice S1x1600000 ![1, 0] ei slices_S2x1600000_S1x1600000_1_0) shapeCasts_S1x1600000_S1600000

/-- A vector of node words as a column of start indices for a gather: a negative word has N added. -/
def nidx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A vector of node words as a column of start indices for a scatter: the words as they are. -/
def cidx (v : IVec S1600000 32) : IVec S1600000x1 32 :=
  broadcastInDim S1600000x1 ![0] bcast_S1600000_S1600000x1_0 v

/-! ## The node projection -/

/-- The bias as one row. -/
def biasRow (b : FVec F S128 .f32) : FVec F S1x128 .f32 := broadcastInDim S1x128 ![1] bcast_S128_S1x128_1 b

/-- feat = x · Wᵀ + (the bias row over every node). -/
def feat (x : FVec F S100000x256 .f32) (w : FVec F S128x256 .f32) (b2 : FVec F S1x128 .f32) : FVec F S100000x128 .f32 :=
  addf (Host.dotGeneral dot_S100000x256_S256x128_S100000x128_1_0_0_1_n_n none x (transpose S256x128 [1, 0] w transposes_S128x256_S256x128_1_0))
    (broadcastInDim S100000x128 ![0, 1] bcast_S1x128_S100000x128_0_1 b2)

/-- The two attention pre-scores of every node, side by side: feat · att. -/
def epre (ft : FVec F S100000x128 .f32) (att : FVec F S128x2 .f32) : FVec F S100000x2 .f32 :=
  Host.dotGeneral dot_S100000x128_S128x2_S100000x2_1_0_0_1_n_n none ft att

/-- Column 0 of the pre-scores: a node's score as a source. -/
def esrc (ft : FVec F S100000x128 .f32) (att : FVec F S128x2 .f32) : FVec F S100000x1 .f32 :=
  extractStridedSlice S100000x1 ![0, 0] (epre ft att) slices_S100000x2_S100000x1_0_0

/-- Column 1 of the pre-scores: a node's score as a target. -/
def etar (ft : FVec F S100000x128 .f32) (att : FVec F S128x2 .f32) : FVec F S100000x1 .f32 :=
  extractStridedSlice S100000x1 ![0, 1] (epre ft att) slices_S100000x2_S100000x1_0_1

/-- exp ∘ leaky of the sum of two columns over the nodes. -/
def nodeScore (a b : FVec F S100000x1 .f32) : FVec F S100000x1 .f32 :=
  Host.exp (select (cmpf .oge (addf a b) (broadcastInDim S100000x1 ![] bcast_S_S100000x1 (constant S_ .f32 0x00000000#32)))
    (addf a b) (mulf (broadcastInDim S100000x1 ![] bcast_S_S100000x1 (constant S_ .f32 0x3E4CCCCD#32)) (addf a b)))

/-! ## The edge stages -/

/-- exp ∘ leaky of the sum of two columns over the edges. -/
def edgeScore (a b : FVec F S1600000x1 .f32) : FVec F S1600000x1 .f32 :=
  Host.exp (select (cmpf .oge (addf a b) (broadcastInDim S1600000x1 ![] bcast_S_S1600000x1 (constant S_ .f32 0x00000000#32)))
    (addf a b) (mulf (broadcastInDim S1600000x1 ![] bcast_S_S1600000x1 (constant S_ .f32 0x3E4CCCCD#32)) (addf a b)))

/-- Every row of an edge array times that edge's weight. -/
def scaleRows (f : FVec F S1600000x128 .f32) (a : FVec F S1600000x1 .f32) : FVec F S1600000x128 .f32 :=
  mulf f (broadcastInDim S1600000x128 ![0, 1] bcast_S1600000x1_S1600000x128_0_1 a)

/-- The aggregated edge rows plus every node's own row times its own weight. -/
def combine (o f : FVec F S100000x128 .f32) (a : FVec F S100000x1 .f32) : FVec F S100000x128 .f32 :=
  addf o (mulf f (broadcastInDim S100000x128 ![0, 1] bcast_S100000x1_S100000x128_0_1 a))

/-- A column read at the (normalised) nodes of a word vector. -/
def gatherCol (col : FVec F S100000x1 .f32) (v : IVec S1600000 32) : FVec F S1600000x1 .f32 :=
  Host.gather gather_S100000x1_S1600000x1_S1600000x1_1_0_n_n_0_1_11 col (nidx v)

/-- Rows read at the (normalised) nodes of a word vector. -/
def gatherRows (rows : FVec F S100000x128 .f32) (v : IVec S1600000 32) : FVec F S1600000x128 .f32 :=
  Host.gather gather_S100000x128_S1600000x1_S1600000x128_1_0_n_n_0_1_1128 rows (nidx v)

/-- A column over the edges summed into the nodes a word vector names. -/
def segSumCol (v : IVec S1600000 32) (upd : FVec F S1600000x1 .f32) : FVec F S100000x1 .f32 :=
  Host.scatterAdd scatter_S100000x1_S1600000x1_S1600000x1_1_0_0_1
    (broadcastInDim S100000x1 ![] bcast_S_S100000x1 (constant S_ .f32 0x00000000#32)) (cidx v) upd

/-- Rows over the edges summed into the nodes a word vector names. -/
def segSumRows (v : IVec S1600000 32) (upd : FVec F S1600000x128 .f32) : FVec F S100000x128 .f32 :=
  Host.scatterAdd scatter_S100000x128_S1600000x1_S1600000x128_1_0_0_1
    (broadcastInDim S100000x128 ![] bcast_S_S100000x128 (constant S_ .f32 0x00000000#32)) (cidx v) upd

/-- Every edge's un-normalised attention weight. -/
def eedge (es et : FVec F S100000x1 .f32) (ei : IVec S2x1600000 32) : FVec F S1600000x1 .f32 :=
  edgeScore (gatherCol es (srcOf ei)) (gatherCol et (tarOf ei))

/-- Every node's softmax denominator: its incoming edges' weights plus its own. -/
def esum (es et eself : FVec F S100000x1 .f32) (ei : IVec S2x1600000 32) : FVec F S100000x1 .f32 :=
  addf (segSumCol (tarOf ei) (eedge es et ei)) eself

/-- Every edge's normalised weight. -/
def alpha (es et eself : FVec F S100000x1 .f32) (ei : IVec S2x1600000 32) : FVec F S1600000x1 .f32 :=
  Host.divf (eedge es et ei) (gatherCol (esum es et eself ei) (tarOf ei))

/-- Every node's own normalised weight. -/
def alphaSelf (es et eself : FVec F S100000x1 .f32) (ei : IVec S2x1600000 32) : FVec F S100000x1 .f32 :=
  Host.divf eself (esum es et eself ei)

/-- Everything after the node projection, as one function of its four results and the edge list. -/
def tailOut (ft : FVec F S100000x128 .f32) (es et eself : FVec F S100000x1 .f32) (ei : IVec S2x1600000 32) :
    FVec F S100000x128 .f32 :=
  combine (segSumRows (tarOf ei) (scaleRows (gatherRows ft (srcOf ei)) (alpha es et eself ei))) ft (alphaSelf es et eself ei)

/-- The layer: the node projection, then the rest. -/
def out (x : FVec F S100000x256 .f32) (ei : IVec S2x1600000 32) (w : FVec F S128x256 .f32) (b : FVec F S128 .f32)
    (att : FVec F S128x2 .f32) : FVec F S100000x128 .f32 :=
  tailOut (feat x w (biasRow b)) (esrc (feat x w (biasRow b)) att) (etar (feat x w (biasRow b)) att)
    (nodeScore (esrc (feat x w (biasRow b)) att) (etar (feat x w (biasRow b)) att)) ei

end Cert.ReferenceIdeal.Spec

end
-- ==== Proof.Region0.lean ====
/-
  The node projection's four result arrays after its run, each as ONE function of the arrays the region finds.

  The region walks the nodes in 50 blocks of 2000 rows.  Block t of feat is (block t of x) · Wᵀ + the bias row; a
  matrix product is row-local (entry (i, j) depends on row i of the left operand only), so that is block t of
  x · Wᵀ + bias over all the nodes.  The pre-scores feat · att are row-local in the same way, their two columns
  are slices, and exp ∘ leaky is pointwise: every result block is the same rows of one whole-array function, and
  the 50 blocks tile the node axis.
-/
import proofs.«139192_j52871047413956_1_alg».proof.Proof.Gen.KernelIdeal.Frame
import proofs.«139192_j52871047413956_1_alg».proof.Proof.Gen.ReferenceIdeal
import proofs.«139192_j52871047413956_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open Cert.ReferenceIdeal (Spec.feat Spec.epre Spec.esrc Spec.etar Spec.nodeScore)

/-! ## The operand indices of the four matrix products

Each product contracts axis 1 of its left operand with axis 0 of its right one and has no batch axis: at result index
(r, c) and contraction position k the left operand is read at (r, k) and the right one at (k, c).  One statement per
product, operand and axis. -/

theorem lhsK1_0 (j : S2000x128.Idx) (k : dot_S2000x256_S256x128_S2000x128_1_0_0_1_n_n.contr.Idx) :
    ((dot_S2000x256_S256x128_S2000x128_1_0_0_1_n_n.lhsIdx j k) 0).val = (j 0).val := by
  simp [DotDims.lhsIdx, dot_S2000x256_S256x128_S2000x128_1_0_0_1_n_n]; rfl
theorem lhsK1_1 (j : S2000x128.Idx) (k : dot_S2000x256_S256x128_S2000x128_1_0_0_1_n_n.contr.Idx) :
    ((dot_S2000x256_S256x128_S2000x128_1_0_0_1_n_n.lhsIdx j k) 1).val = (k ⟨0, by decide⟩).val :=
  dot_S2000x256_S256x128_S2000x128_1_0_0_1_n_n.lhsIdx_val_of_single rfl j k
theorem rhsK1_0 (j : S2000x128.Idx) (k : dot_S2000x256_S256x128_S2000x128_1_0_0_1_n_n.contr.Idx) :
    ((dot_S2000x256_S256x128_S2000x128_1_0_0_1_n_n.rhsIdx j k) 0).val = (k ⟨0, by decide⟩).val :=
  dot_S2000x256_S256x128_S2000x128_1_0_0_1_n_n.rhsIdx_val_of_single rfl j k
theorem rhsK1_1 (j : S2000x128.Idx) (k : dot_S2000x256_S256x128_S2000x128_1_0_0_1_n_n.contr.Idx) :
    ((dot_S2000x256_S256x128_S2000x128_1_0_0_1_n_n.rhsIdx j k) 1).val = (j 1).val := by
  simp [DotDims.rhsIdx, dot_S2000x256_S256x128_S2000x128_1_0_0_1_n_n]; rfl

theorem lhsK2_0 (j : S2000x2.Idx) (k : dot_S2000x128_S128x2_S2000x2_1_0_0_1_n_n.contr.Idx) :
    ((dot_S2000x128_S128x2_S2000x2_1_0_0_1_n_n.lhsIdx j k) 0).val = (j 0).val := by
  simp [DotDims.lhsIdx, dot_S2000x128_S128x2_S2000x2_1_0_0_1_n_n]; rfl
theorem lhsK2_1 (j : S2000x2.Idx) (k : dot_S2000x128_S128x2_S2000x2_1_0_0_1_n_n.contr.Idx) :
    ((dot_S2000x128_S128x2_S2000x2_1_0_0_1_n_n.lhsIdx j k) 1).val = (k ⟨0, by decide⟩).val :=
  dot_S2000x128_S128x2_S2000x2_1_0_0_1_n_n.lhsIdx_val_of_single rfl j k
theorem rhsK2_0 (j : S2000x2.Idx) (k : dot_S2000x128_S128x2_S2000x2_1_0_0_1_n_n.contr.Idx) :
    ((dot_S2000x128_S128x2_S2000x2_1_0_0_1_n_n.rhsIdx j k) 0).val = (k ⟨0, by decide⟩).val :=
  dot_S2000x128_S128x2_S2000x2_1_0_0_1_n_n.rhsIdx_val_of_single rfl j k
theorem rhsK2_1 (j : S2000x2.Idx) (k : dot_S2000x128_S128x2_S2000x2_1_0_0_1_n_n.contr.Idx) :
    ((dot_S2000x128_S128x2_S2000x2_1_0_0_1_n_n.rhsIdx j k) 1).val = (j 1).val := by
  simp [DotDims.rhsIdx, dot_S2000x128_S128x2_S2000x2_1_0_0_1_n_n]; rfl

theorem lhsR1_0 (j : Cert.ReferenceIdeal.S100000x128.Idx) (k : Cert.ReferenceIdeal.dot_S100000x256_S256x128_S100000x128_1_0_0_1_n_n.contr.Idx) :
    ((Cert.ReferenceIdeal.dot_S100000x256_S256x128_S100000x128_1_0_0_1_n_n.lhsIdx j k) 0).val = (j 0).val := by
  simp [DotDims.lhsIdx, Cert.ReferenceIdeal.dot_S100000x256_S256x128_S100000x128_1_0_0_1_n_n]; rfl
theorem lhsR1_1 (j : Cert.ReferenceIdeal.S100000x128.Idx) (k : Cert.ReferenceIdeal.dot_S100000x256_S256x128_S100000x128_1_0_0_1_n_n.contr.Idx) :
    ((Cert.ReferenceIdeal.dot_S100000x256_S256x128_S100000x128_1_0_0_1_n_n.lhsIdx j k) 1).val = (k ⟨0, by decide⟩).val :=
  Cert.ReferenceIdeal.dot_S100000x256_S256x128_S100000x128_1_0_0_1_n_n.lhsIdx_val_of_single rfl j k
theorem rhsR1_0 (j : Cert.ReferenceIdeal.S100000x128.Idx) (k : Cert.ReferenceIdeal.dot_S100000x256_S256x128_S100000x128_1_0_0_1_n_n.contr.Idx) :
    ((Cert.ReferenceIdeal.dot_S100000x256_S256x128_S100000x128_1_0_0_1_n_n.rhsIdx j k) 0).val = (k ⟨0, by decide⟩).val :=
  Cert.ReferenceIdeal.dot_S100000x256_S256x128_S100000x128_1_0_0_1_n_n.rhsIdx_val_of_single rfl j k
theorem rhsR1_1 (j : Cert.ReferenceIdeal.S100000x128.Idx) (k : Cert.ReferenceIdeal.dot_S100000x256_S256x128_S100000x128_1_0_0_1_n_n.contr.Idx) :
    ((Cert.ReferenceIdeal.dot_S100000x256_S256x128_S100000x128_1_0_0_1_n_n.rhsIdx j k) 1).val = (j 1).val := by
  simp [DotDims.rhsIdx, Cert.ReferenceIdeal.dot_S100000x256_S256x128_S100000x128_1_0_0_1_n_n]; rfl

theorem lhsR2_0 (j : Cert.ReferenceIdeal.S100000x2.Idx) (k : Cert.ReferenceIdeal.dot_S100000x128_S128x2_S100000x2_1_0_0_1_n_n.contr.Idx) :
    ((Cert.ReferenceIdeal.dot_S100000x128_S128x2_S100000x2_1_0_0_1_n_n.lhsIdx j k) 0).val = (j 0).val := by
  simp [DotDims.lhsIdx, Cert.ReferenceIdeal.dot_S100000x128_S128x2_S100000x2_1_0_0_1_n_n]; rfl
theorem lhsR2_1 (j : Cert.ReferenceIdeal.S100000x2.Idx) (k : Cert.ReferenceIdeal.dot_S100000x128_S128x2_S100000x2_1_0_0_1_n_n.contr.Idx) :
    ((Cert.ReferenceIdeal.dot_S100000x128_S128x2_S100000x2_1_0_0_1_n_n.lhsIdx j k) 1).val = (k ⟨0, by decide⟩).val :=
  Cert.ReferenceIdeal.dot_S100000x128_S128x2_S100000x2_1_0_0_1_n_n.lhsIdx_val_of_single rfl j k
theorem rhsR2_0 (j : Cert.ReferenceIdeal.S100000x2.Idx) (k : Cert.ReferenceIdeal.dot_S100000x128_S128x2_S100000x2_1_0_0_1_n_n.contr.Idx) :
    ((Cert.ReferenceIdeal.dot_S100000x128_S128x2_S100000x2_1_0_0_1_n_n.rhsIdx j k) 0).val = (k ⟨0, by decide⟩).val :=
  Cert.ReferenceIdeal.dot_S100000x128_S128x2_S100000x2_1_0_0_1_n_n.rhsIdx_val_of_single rfl j k
theorem rhsR2_1 (j : Cert.ReferenceIdeal.S100000x2.Idx) (k : Cert.ReferenceIdeal.dot_S100000x128_S128x2_S100000x2_1_0_0_1_n_n.contr.Idx) :
    ((Cert.ReferenceIdeal.dot_S100000x128_S128x2_S100000x2_1_0_0_1_n_n.rhsIdx j k) 1).val = (j 1).val := by
  simp [DotDims.rhsIdx, Cert.ReferenceIdeal.dot_S100000x128_S128x2_S100000x2_1_0_0_1_n_n]; rfl

/-! ## The products at an index -/

/-- feat at (i, q): the dot product of row i of x with row q of W, plus the bias row's entry q. -/
theorem feat_apply (x : FVec Ideal S100000x256 .f32) (w : FVec Ideal S128x256 .f32) (b2 : FVec Ideal S1x128 .f32)
    (i : Fin 100000) (q : Fin 128) :
    Spec.feat (F := Ideal) x w b2 (ix2 i q) = (∑ k : Fin 256, x (ix2 i k) * w (ix2 q k)) + b2 (ix2 0 q) := by
  unfold Spec.feat
  rw [addf_apply]
  simp only [Host.dotGeneral]
  rw [Ideal.dotGeneral_apply]
  rw [← Equiv.sum_comp (contrEquiv1 Cert.ReferenceIdeal.dot_S100000x256_S256x128_S100000x128_1_0_0_1_n_n 256 rfl rfl).symm]
  congr 1
  · refine Finset.sum_congr rfl fun k _ => ?_
    congr 1
    · refine congrArg x (funext fun a => Fin.ext ?_)
      match a with
      | ⟨0, _⟩ => exact lhsR1_0 _ _
      | ⟨1, _⟩ => exact (lhsR1_1 _ _).trans (contrEquiv1_symm_val Cert.ReferenceIdeal.dot_S100000x256_S256x128_S100000x128_1_0_0_1_n_n 256 rfl rfl k)
    · refine transpose_apply _ _ _ _ (ix2 q k) ?_
      intro b
      match b with
      | ⟨0, _⟩ => exact ((rhsR1_0 _ _).trans (contrEquiv1_symm_val Cert.ReferenceIdeal.dot_S100000x256_S256x128_S100000x128_1_0_0_1_n_n 256 rfl rfl k)).symm
      | ⟨1, _⟩ => exact (rhsR1_1 (ix2 i q) _).symm
  · exact broadcastInDim_apply _ _ _ _ (ix2 0 q) (fun a => match a with | ⟨0, _⟩ => rfl | ⟨1, _⟩ => rfl)

/-- The kernel's feat block at (p, q): the same dot product over the block's row p. -/
theorem pay1_apply (v0 : FVec Ideal S2000x256 .f32) (v2 : FVec Ideal S128x256 .f32) (v6 : FVec Ideal S1x128 .f32)
    (p : Fin 2000) (q : Fin 128) :
    k0_pay1 (F := Ideal) v0 v2 v6 (ix2 p q) = (∑ k : Fin 256, v0 (ix2 p k) * v2 (ix2 q k)) + v6 (ix2 0 q) := by
  unfold k0_pay1
  show addf (matmul dot_S2000x256_S256x128_S2000x128_1_0_0_1_n_n none (truncf .bf16 v0 bitsLt_bf16_f32)
      (transpose S256x128 [1, 0] (truncf .bf16 v2 bitsLt_bf16_f32) transposes_S128x256_p1_0_S256x128)
      (constant S2000x128 .f32 0x00000000#32))
    (broadcastTo S2000x128 (shapeCast S1x128 v6 shapeCasts_S1x128_S1x128) broadcasts_S1x128_S2000x128) (ix2 p q) = _
  rw [addf_apply]
  simp only [matmul]
  rw [Ideal.matmul_constant_zero_apply]
  rw [← Equiv.sum_comp (contrEquiv1 dot_S2000x256_S256x128_S2000x128_1_0_0_1_n_n 256 rfl rfl).symm]
  congr 1
  · refine Finset.sum_congr rfl fun k _ => ?_
    congr 1
    · rw [truncf_apply]
      refine congrArg v0 (funext fun a => Fin.ext ?_)
      match a with
      | ⟨0, _⟩ => exact lhsK1_0 (ix2 p q) _
      | ⟨1, _⟩ => exact (lhsK1_1 (ix2 p q) _).trans (contrEquiv1_symm_val dot_S2000x256_S256x128_S2000x128_1_0_0_1_n_n 256 rfl rfl k)
    · refine (transpose_apply _ _ _ _ (ix2 q k) ?_).trans (truncf_apply _ _ _)
      intro b
      match b with
      | ⟨0, _⟩ => exact ((rhsK1_0 (ix2 p q) _).trans (contrEquiv1_symm_val dot_S2000x256_S256x128_S2000x128_1_0_0_1_n_n 256 rfl rfl k)).symm
      | ⟨1, _⟩ => exact (rhsK1_1 (ix2 p q) _).symm
  · rw [shapeCast_self]
    exact broadcastTo_apply _ _ _ (ix2 0 q) (fun a => match a with | ⟨0, _⟩ => rfl | ⟨1, _⟩ => rfl)

/-- The pre-scores feat · att at (i, c). -/
theorem epre_apply (ft : FVec Ideal S100000x128 .f32) (att : FVec Ideal S128x2 .f32) (i : Fin 100000) (c : Fin 2) :
    Spec.epre (F := Ideal) ft att (ix2 i c) = ∑ k : Fin 128, ft (ix2 i k) * att (ix2 k c) := by
  unfold Spec.epre
  simp only [Host.dotGeneral]
  rw [Ideal.dotGeneral_apply, ← Equiv.sum_comp (contrEquiv1 Cert.ReferenceIdeal.dot_S100000x128_S128x2_S100000x2_1_0_0_1_n_n 128 rfl rfl).symm]
  refine Finset.sum_congr rfl fun k _ => ?_
  congr 1
  · refine congrArg ft (funext fun a => Fin.ext ?_)
    match a with
    | ⟨0, _⟩ => exact lhsR2_0 (ix2 i c) _
    | ⟨1, _⟩ => exact (lhsR2_1 (ix2 i c) _).trans (contrEquiv1_symm_val Cert.ReferenceIdeal.dot_S100000x128_S128x2_S100000x2_1_0_0_1_n_n 128 rfl rfl k)
  · refine congrArg att (funext fun a => Fin.ext ?_)
    match a with
    | ⟨0, _⟩ => exact (rhsR2_0 (ix2 i c) _).trans (contrEquiv1_symm_val Cert.ReferenceIdeal.dot_S100000x128_S128x2_S100000x2_1_0_0_1_n_n 128 rfl rfl k)
    | ⟨1, _⟩ => exact rhsR2_1 (ix2 i c) _

/-- The kernel's pre-score block at (p, c): its feat block's row p against column c of att. -/
theorem pay2_apply (v0 : FVec Ideal S2000x256 .f32) (v2 : FVec Ideal S128x256 .f32) (v6 : FVec Ideal S1x128 .f32)
    (v12 : FVec Ideal S128x2 .f32) (p : Fin 2000) (c : Fin 2) :
    k0_pay2 (F := Ideal) v0 v2 v6 v12 (ix2 p c)
      = ∑ k : Fin 128, k0_pay1 (F := Ideal) v0 v2 v6 (ix2 p k) * v12 (ix2 k c) := by
  unfold k0_pay2
  show matmul dot_S2000x128_S128x2_S2000x2_1_0_0_1_n_n none (truncf .bf16 (k0_pay1 (F := Ideal) v0 v2 v6) bitsLt_bf16_f32)
    (truncf .bf16 v12 bitsLt_bf16_f32) (constant S2000x2 .f32 0x00000000#32) (ix2 p c) = _
  simp only [matmul]
  rw [Ideal.matmul_constant_zero_apply, ← Equiv.sum_comp (contrEquiv1 dot_S2000x128_S128x2_S2000x2_1_0_0_1_n_n 128 rfl rfl).symm]
  refine Finset.sum_congr rfl fun k _ => ?_
  congr 1
  · rw [truncf_apply]
    refine congrArg (k0_pay1 (F := Ideal) v0 v2 v6) (funext fun a => Fin.ext ?_)
    match a with
    | ⟨0, _⟩ => exact lhsK2_0 (ix2 p c) _
    | ⟨1, _⟩ => exact (lhsK2_1 (ix2 p c) _).trans (contrEquiv1_symm_val dot_S2000x128_S128x2_S2000x2_1_0_0_1_n_n 128 rfl rfl k)
  · rw [truncf_apply]
    refine congrArg v12 (funext fun a => Fin.ext ?_)
    match a with
    | ⟨0, _⟩ => exact (rhsK2_0 (ix2 p c) _).trans (contrEquiv1_symm_val dot_S2000x128_S128x2_S2000x2_1_0_0_1_n_n 128 rfl rfl k)
    | ⟨1, _⟩ => exact rhsK2_1 (ix2 p c) _

/-! ## Row blocks: a block of rows of the left operand gives the same rows of the product -/

/-- Rows `T·2000 …` of feat from rows `T·2000 …` of x. -/
theorem feat_block (x : FVec Ideal S100000x256 .f32) (w : FVec Ideal S128x256 .f32) (b2 : FVec Ideal S1x128 .f32)
    (x0 : FVec Ideal S2000x256 .f32) (w0 : FVec Ideal S128x256 .f32) (b0 : FVec Ideal S1x128 .f32) (T : Nat)
    (hx : ∀ (y : S2000x256.Idx) (i : S100000x256.Idx), (i 0).val = T * 2000 + (y 0).val → (i 1).val = (y 1).val → x0 y = x i)
    (hw : w0 = w) (hb : b0 = b2)
    (j : S2000x128.Idx) (i : S100000x128.Idx) (h0 : (i 0).val = T * 2000 + (j 0).val) (h1 : (i 1).val = (j 1).val) :
    k0_pay1 (F := Ideal) x0 w0 b0 j = Spec.feat (F := Ideal) x w b2 i := by
  subst hw hb
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext h1
  rw [pay1_apply, feat_apply]
  congr 1
  refine Finset.sum_congr rfl fun k _ => ?_
  rw [hx (ix2 p k) (ix2 r k) h0 rfl]

/-- The same rows of the pre-score matrix feat · att. -/
theorem epre_block (x : FVec Ideal S100000x256 .f32) (w : FVec Ideal S128x256 .f32) (b2 : FVec Ideal S1x128 .f32)
    (att : FVec Ideal S128x2 .f32)
    (x0 : FVec Ideal S2000x256 .f32) (w0 : FVec Ideal S128x256 .f32) (b0 : FVec Ideal S1x128 .f32)
    (a0 : FVec Ideal S128x2 .f32) (T : Nat)
    (hx : ∀ (y : S2000x256.Idx) (i : S100000x256.Idx), (i 0).val = T * 2000 + (y 0).val → (i 1).val = (y 1).val → x0 y = x i)
    (hw : w0 = w) (hb : b0 = b2) (ha : a0 = att)
    (j : S2000x2.Idx) (i : Cert.ReferenceIdeal.S100000x2.Idx) (h0 : (i 0).val = T * 2000 + (j 0).val) (h1 : (i 1).val = (j 1).val) :
    k0_pay2 (F := Ideal) x0 w0 b0 a0 j = Spec.epre (F := Ideal) (Spec.feat (F := Ideal) x w b2) att i := by
  subst ha
  obtain ⟨p, c, rfl⟩ : ∃ (p : Fin 2000) (c : Fin 2), j = ix2 p c := ⟨j 0, j 1, eq_ix2 j⟩
  obtain ⟨r, c', rfl⟩ : ∃ (r : Fin 100000) (c' : Fin 2), i = ix2 r c' := ⟨i 0, i 1, eq_ix2 i⟩
  obtain rfl : c' = c := Fin.ext h1
  rw [pay2_apply, epre_apply]
  refine Finset.sum_congr rfl fun k _ => ?_
  rw [feat_block x w b2 x0 w0 b0 T hx hw hb (ix2 p k) (ix2 r k) h0 rfl]

/-- Column 0 of those rows. -/
theorem esrc_block (x : FVec Ideal S100000x256 .f32) (w : FVec Ideal S128x256 .f32) (b2 : FVec Ideal S1x128 .f32)
    (att : FVec Ideal S128x2 .f32)
    (x0 : FVec Ideal S2000x256 .f32) (w0 : FVec Ideal S128x256 .f32) (b0 : FVec Ideal S1x128 .f32)
    (a0 : FVec Ideal S128x2 .f32) (T : Nat)
    (hx : ∀ (y : S2000x256.Idx) (i : S100000x256.Idx), (i 0).val = T * 2000 + (y 0).val → (i 1).val = (y 1).val → x0 y = x i)
    (hw : w0 = w) (hb : b0 = b2) (ha : a0 = att)
    (j : S2000x1.Idx) (i : S100000x1.Idx) (h0 : (i 0).val = T * 2000 + (j 0).val) :
    k0_pay3 (F := Ideal) x0 w0 b0 a0 j = Spec.esrc (F := Ideal) (Spec.feat (F := Ideal) x w b2) att i := by
  have hj : (j 1).val < 1 := (j 1).isLt
  have hi : (i 1).val < 1 := (i 1).isLt
  unfold k0_pay3 Spec.esrc
  refine (extractStridedSlice_apply _ _ _ j (ix2 (j 0) (0 : Fin 2)) (fun a => ?_)).trans
    ((epre_block x w b2 att x0 w0 b0 a0 T hx hw hb ha (ix2 (j 0) (0 : Fin 2)) (ix2 (i 0) (0 : Fin 2)) h0 rfl).trans
      (extractStridedSlice_apply _ _ _ i (ix2 (i 0) (0 : Fin 2)) (fun a => ?_)).symm)
  · match a with
    | ⟨0, _⟩ => show (j 0).val = 0 + (j 0).val; omega
    | ⟨1, _⟩ => show 0 = 0 + (j 1).val; omega
  · match a with
    | ⟨0, _⟩ => show (i 0).val = 0 + (i 0).val; omega
    | ⟨1, _⟩ => show 0 = 0 + (i 1).val; omega

/-- Column 1 of those rows. -/
theorem etar_block (x : FVec Ideal S100000x256 .f32) (w : FVec Ideal S128x256 .f32) (b2 : FVec Ideal S1x128 .f32)
    (att : FVec Ideal S128x2 .f32)
    (x0 : FVec Ideal S2000x256 .f32) (w0 : FVec Ideal S128x256 .f32) (b0 : FVec Ideal S1x128 .f32)
    (a0 : FVec Ideal S128x2 .f32) (T : Nat)
    (hx : ∀ (y : S2000x256.Idx) (i : S100000x256.Idx), (i 0).val = T * 2000 + (y 0).val → (i 1).val = (y 1).val → x0 y = x i)
    (hw : w0 = w) (hb : b0 = b2) (ha : a0 = att)
    (j : S2000x1.Idx) (i : S100000x1.Idx) (h0 : (i 0).val = T * 2000 + (j 0).val) :
    k0_pay4 (F := Ideal) x0 w0 b0 a0 j = Spec.etar (F := Ideal) (Spec.feat (F := Ideal) x w b2) att i := by
  have hj : (j 1).val < 1 := (j 1).isLt
  have hi : (i 1).val < 1 := (i 1).isLt
  unfold k0_pay4 Spec.etar
  refine (extractStridedSlice_apply _ _ _ j (ix2 (j 0) (1 : Fin 2)) (fun a => ?_)).trans
    ((epre_block x w b2 att x0 w0 b0 a0 T hx hw hb ha (ix2 (j 0) (1 : Fin 2)) (ix2 (i 0) (1 : Fin 2)) h0 rfl).trans
      (extractStridedSlice_apply _ _ _ i (ix2 (i 0) (1 : Fin 2)) (fun a => ?_)).symm)
  · match a with
    | ⟨0, _⟩ => show (j 0).val = 0 + (j 0).val; omega
    | ⟨1, _⟩ => show 1 = 1 + (j 1).val; omega
  · match a with
    | ⟨0, _⟩ => show (i 0).val = 0 + (i 0).val; omega
    | ⟨1, _⟩ => show 1 = 1 + (i 1).val; omega

/-- exp ∘ leaky of the two columns' sum, on those rows. -/
theorem score_block (x : FVec Ideal S100000x256 .f32) (w : FVec Ideal S128x256 .f32) (b2 : FVec Ideal S1x128 .f32)
    (att : FVec Ideal S128x2 .f32)
    (x0 : FVec Ideal S2000x256 .f32) (w0 : FVec Ideal S128x256 .f32) (b0 : FVec Ideal S1x128 .f32)
    (a0 : FVec Ideal S128x2 .f32) (T : Nat)
    (hx : ∀ (y : S2000x256.Idx) (i : S100000x256.Idx), (i 0).val = T * 2000 + (y 0).val → (i 1).val = (y 1).val → x0 y = x i)
    (hw : w0 = w) (hb : b0 = b2) (ha : a0 = att)
    (j : S2000x1.Idx) (i : S100000x1.Idx) (h0 : (i 0).val = T * 2000 + (j 0).val) :
    k0_pay5 (F := Ideal) x0 w0 b0 a0 j
      = Spec.nodeScore (F := Ideal) (Spec.esrc (F := Ideal) (Spec.feat (F := Ideal) x w b2) att)
          (Spec.etar (F := Ideal) (Spec.feat (F := Ideal) x w b2) att) i := by
  have e3 := esrc_block x w b2 att x0 w0 b0 a0 T hx hw hb ha j i h0
  have e4 := etar_block x w b2 att x0 w0 b0 a0 T hx hw hb ha j i h0
  unfold k0_pay5 Spec.nodeScore
  show Ideal.exp _ = Ideal.exp _
  congr 1
  rw [select_apply, select_apply, cmpf_apply, cmpf_apply, mulf_apply, mulf_apply, addf_apply, addf_apply, e3, e4]
  rfl

variable (V : (c : Dev nD) → (b : Ref sig .tc) → Buf (Elt Ideal) ((c : Thread nD τ).loc b))

/-! ## The windows' blocks, and from the blocks to the arrays -/

/-- A block that fills its buffer sits at offset zero. -/
theorem hz : (![0, 0] : Fin 2 → Nat) = fun _ => 0 := funext fun a => by fin_cases a <;> rfl

/-- The printed index maps over the 50 points: the node windows sit at block (t, 0), the others at block (0, 0). -/
theorem idx_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The x block at point t is rows 2000·t … of x. -/
theorem xblk_apply (c : Dev nD) (t : Fin cfg0.N) (y : S2000x256.Idx) (i : S100000x256.Idx)
    (h0 : (i 0).val = t.val * 2000 + (y 0).val) (h1 : (i 1).val = (y 1).val) :
    (iblk0 V c 0 t : Vec Ideal S2000x256 .f32) y = (V c main_arg0 : S100000x256.Idx → Ideal .f32) i := by
  obtain ⟨e0, e1, -⟩ := idx_facts0 t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- The W block at every point is W. -/
theorem wblk_eq (c : Dev nD) (t : Fin cfg0.N) :
    (iblk0 V c 1 t : Vec Ideal S128x256 .f32) = (V c main_arg2 : S128x256.Idx → Ideal .f32) := by
  obtain ⟨-, -, e0, e1, -⟩ := idx_facts0 t
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The bias-row block at every point is the bias row. -/
theorem bblk_eq (c : Dev nD) (t : Fin cfg0.N) :
    (iblk0 V c 2 t : Vec Ideal S1x128 .f32) = (V c main_v4 : S1x128.Idx → Ideal .f32) := by
  obtain ⟨-, -, -, -, e0, e1, -⟩ := idx_facts0 t
  funext y
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The att block at every point is att. -/
theorem ablk_eq (c : Dev nD) (t : Fin cfg0.N) :
    (iblk0 V c 3 t : Vec Ideal S128x2 .f32) = (V c main_arg4 : S128x2.Idx → Ideal .f32) := by
  obtain ⟨-, -, -, -, -, -, e0, e1, -⟩ := idx_facts0 t
  funext y
  show V c main_arg4 (((cfg0.win 3).blk t).view.emb y) = V c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 2 + 1 * (y 1).val = (y 1).val; omega

/-- What point t writes back to window 4's array is block t of the whole-array function. -/
theorem flushed4_eq (c : Dev nD) (t : Fin cfg0.N) :
    (dat0 (F := Ideal) V c).flushed 4 t = ((cfg0.win 4).blk t).view.read (Elt Ideal) (Spec.feat (F := Ideal) (V c main_arg0) (V c main_arg2) (V c main_v4)) := by
  show (cfg0.win 4).cut (grid0.coords t) ((dat0 V c).after 4 t) = _
  rw [after0_4]
  unfold out0_4
  rw [View.canon_unit_zero hz]
  simp only [View.ld_unit_zero (S := S2000x256) hz, View.ld_unit_zero (S := S128x256) hz,
    View.ld_unit_zero (S := S1x128) hz]
  obtain ⟨-, -, -, -, -, -, -, -, e0, e1, -⟩ := idx_facts0 t
  funext j
  refine feat_block (V c main_arg0) (V c main_arg2) (V c main_v4) (iblk0 V c 0 t) (iblk0 V c 1 t) (iblk0 V c 2 t) t.val
    (fun y i h0 h1 => xblk_apply V c t y i h0 h1) (wblk_eq V c t) (bblk_eq V c t) j (((cfg0.win 4).blk t).view.emb j) ?_ ?_
  · show win0_4.index t (0 : Fin 2) * 2000 + 1 * (j 0).val = t.val * 2000 + (j 0).val; omega
  · show win0_4.index t (1 : Fin 2) * 128 + 1 * (j 1).val = (j 1).val; omega

/-- An index of window 4's array is in point t's block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v5_0).slice (win0_4.rect t)).set ↔ _
  rw [View.set_slice_whole, Rect.mem_set_unit]
  exact Iff.rfl

/-- Row r lies in the block of point r / 2000: the 50 blocks tile the node axis. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_4 _, ?_⟩
  rw [mem_blk4]
  obtain ⟨-, -, -, -, -, -, -, -, e0, e1, -⟩ := idx_facts0 ⟨(i 0).val / 2000, ht⟩
  have e0' : win0_4.index ⟨(i 0).val / 2000, ht⟩ (0 : Fin 2) = (i 0).val / 2000 := e0
  intro a
  match a with
  | ⟨0, _⟩ => show win0_4.index ⟨(i 0).val / 2000, ht⟩ (0 : Fin 2) * 2000 ≤ (i 0).val ∧ (i 0).val < win0_4.index ⟨(i 0).val / 2000, ht⟩ (0 : Fin 2) * 2000 + 2000; omega
  | ⟨1, _⟩ => show win0_4.index ⟨(i 0).val / 2000, ht⟩ (1 : Fin 2) * 128 ≤ (i 1).val ∧ (i 1).val < win0_4.index ⟨(i 0).val / 2000, ht⟩ (1 : Fin 2) * 128 + 128; omega

/-- What point t writes back to window 5's array is block t of the whole-array function. -/
theorem flushed5_eq (c : Dev nD) (t : Fin cfg0.N) :
    (dat0 (F := Ideal) V c).flushed 5 t = ((cfg0.win 5).blk t).view.read (Elt Ideal) (Spec.esrc (F := Ideal) (Spec.feat (F := Ideal) (V c main_arg0) (V c main_arg2) (V c main_v4)) (V c main_arg4)) := by
  show (cfg0.win 5).cut (grid0.coords t) ((dat0 V c).after 5 t) = _
  rw [after0_5]
  unfold out0_5
  rw [View.canon_unit_zero hz]
  simp only [View.ld_unit_zero (S := S2000x256) hz, View.ld_unit_zero (S := S128x256) hz,
    View.ld_unit_zero (S := S1x128) hz, View.ld_unit_zero (S := S128x2) hz]
  obtain ⟨-, -, -, -, -, -, -, -, -, -, e0, e1, -⟩ := idx_facts0 t
  funext j
  refine esrc_block (V c main_arg0) (V c main_arg2) (V c main_v4) (V c main_arg4) (iblk0 V c 0 t) (iblk0 V c 1 t) (iblk0 V c 2 t) (iblk0 V c 3 t) t.val
    (fun y i h0 h1 => xblk_apply V c t y i h0 h1) (wblk_eq V c t) (bblk_eq V c t) (ablk_eq V c t) j (((cfg0.win 5).blk t).view.emb j) ?_
  · show win0_5.index t (0 : Fin 2) * 2000 + 1 * (j 0).val = t.val * 2000 + (j 0).val; omega

/-- An index of window 5's array is in point t's block iff each coordinate is in the block's range on its axis. -/
theorem mem_blk5 (t : Fin cfg0.N) (i : S100000x1.Idx) :
    i ∈ ((cfg0.win 5).blk t).view.set ↔ ∀ a : Fin 2, win0_5.index t a * S2000x1.size a ≤ (i a).val ∧ (i a).val < win0_5.index t a * S2000x1.size a + S2000x1.size a := by
  show i ∈ ((View.whole main_v5_1).slice (win0_5.rect t)).set ↔ _
  rw [View.set_slice_whole, Rect.mem_set_unit]
  exact Iff.rfl

/-- Row r lies in the block of point r / 2000: the 50 blocks tile the node axis. -/
theorem cover5 (i : S100000x1.Idx) :
    ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 50 := N_0
  have ht : (i 0).val / 2000 < cfg0.N := by rw [hN]; omega
  refine ⟨⟨(i 0).val / 2000, ht⟩, flush0_5 _, ?_⟩
  rw [mem_blk5]
  obtain ⟨-, -, -, -, -, -, -, -, -, -, e0, e1, -⟩ := idx_facts0 ⟨(i 0).val / 2000, ht⟩
  have e0' : win0_5.index ⟨(i 0).val / 2000, ht⟩ (0 : Fin 2) = (i 0).val / 2000 := e0
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; omega
  | ⟨1, _⟩ => show win0_5.index ⟨(i 0).val / 2000, ht⟩ (1 : Fin 2) * 1 ≤ (i 1).val ∧ (i 1).val < win0_5.index ⟨(i 0).val / 2000, ht⟩ (1 : Fin 2) * 1 + 1; omega

/-- What point t writes back to window 6's array is block t of the whole-array function. -/
theorem flushed6_eq (c : Dev nD) (t : Fin cfg0.N) :
    (dat0 (F := Ideal) V c).flushed 6 t = ((cfg0.win 6).blk t).view.read (Elt Ideal) (Spec.etar (F := Ideal) (Spec.feat (F := Ideal) (V c main_arg0) (V c main_arg2) (V c main_v4)) (V c main_arg4)) := by
  show (cfg0.win 6).cut (grid0.coords t) ((dat0 V c).after 6 t) = _
  rw [after0_6]
  unfold out0_6
  rw [View.canon_unit_zero hz]
  simp only [View.ld_unit_zero (S := S2000x256) hz, View.ld_unit_zero (S := S128x256) hz,
    View.ld_unit_zero (S := S1x128) hz, View.ld_unit_zero (S := S128x2) hz]
  obtain ⟨-, -, -, -, -, -, -, -, -, -, -, -, e0, e1, -⟩ := idx_facts0 t
  funext j
  refine etar_block (V c main_arg0) (V c main_arg2) (V c main_v4) (V c main_arg4) (iblk0 V c 0 t) (iblk0 V c 1 t) (iblk0 V c 2 t) (iblk0 V c 3 t) t.val
    (fun y i h0 h1 => xblk_apply V c t y i h0 h1) (wblk_eq V c t) (bblk_eq V c t) (ablk_eq V c t) j (((cfg0.win 6).blk t).view.emb j) ?_
  · show win0_6.index t (0 : Fin 2) * 2000 + 1 * (j 0).val = t.val * 2000 + (j 0).val; omega

/-- An index of window 6's array is in point t's block iff each coordinate is in the block's range on its axis. -/
theorem mem_blk6 (t : Fin cfg0.N) (i : S100000x1.Idx) :
    i ∈ ((cfg0.win 6).blk t).view.set ↔ ∀ a : Fin 2, win0_6.index t a * S2000x1.size a ≤ (i a).val ∧ (i a).val < win0_6.index t a * S2000x1.size a + S2000x1.size a := by
  show i ∈ ((View.whole main_v5_2).slice (win0_6.rect t)).set ↔ _
  rw [View.set_slice_whole, Rect.mem_set_unit]
  exact Iff.rfl

/-- Row r lies in the block of point r / 2000: the 50 blocks tile the node axis. -/
theorem cover6 (i : S100000x1.Idx) :
    ∃ t : Fin cfg0.N, (cfg0.win 6).flush t = true ∧ i ∈ ((cfg0.win 6).blk t).view.set := by
  have hi0 : (i 0).val < 100000 := (i 0).isLt
  have hi1 : (i 1).val < 1 := (i 1).isLt
  have hN : cfg0.N = 50 := N_0
  have ht : (i 0).val / 2000 < cfg0.N := by rw [hN]; omega
  refine ⟨⟨(i 0).val / 2000, ht⟩, flush0_6 _, ?_⟩
  rw [mem_blk6]
  obtain ⟨-, -, -, -, -, -, -, -, -, -, -, -, e0, e1, -⟩ := idx_facts0 ⟨(i 0).val / 2000, ht⟩
  have e0' : win0_6.index ⟨(i 0).val / 2000, ht⟩ (0 : Fin 2) = (i 0).val / 2000 := e0
  intro a
  match a with
  | ⟨0, _⟩ => show win0_6.index ⟨(i 0).val / 2000, ht⟩ (0 : Fin 2) * 2000 ≤ (i 0).val ∧ (i 0).val < win0_6.index ⟨(i 0).val / 2000, ht⟩ (0 : Fin 2) * 2000 + 2000; omega
  | ⟨1, _⟩ => show win0_6.index ⟨(i 0).val / 2000, ht⟩ (1 : Fin 2) * 1 ≤ (i 1).val ∧ (i 1).val < win0_6.index ⟨(i 0).val / 2000, ht⟩ (1 : Fin 2) * 1 + 1; omega

/-- What point t writes back to window 7's array is block t of the whole-array function. -/
theorem flushed7_eq (c : Dev nD) (t : Fin cfg0.N) :
    (dat0 (F := Ideal) V c).flushed 7 t = ((cfg0.win 7).blk t).view.read (Elt Ideal) (Spec.nodeScore (F := Ideal) (Spec.esrc (F := Ideal) (Spec.feat (F := Ideal) (V c main_arg0) (V c main_arg2) (V c main_v4)) (V c main_arg4)) (Spec.etar (F := Ideal) (Spec.feat (F := Ideal) (V c main_arg0) (V c main_arg2) (V c main_v4)) (V c main_arg4))) := by
  show (cfg0.win 7).cut (grid0.coords t) ((dat0 V c).after 7 t) = _
  rw [after0_7]
  unfold out0_7
  rw [View.canon_unit_zero hz]
  simp only [View.ld_unit_zero (S := S2000x256) hz, View.ld_unit_zero (S := S128x256) hz,
    View.ld_unit_zero (S := S1x128) hz, View.ld_unit_zero (S := S128x2) hz]
  obtain ⟨-, -, -, -, -, -, -, -, -, -, -, -, -, -, e0, e1⟩ := idx_facts0 t
  funext j
  refine score_block (V c main_arg0) (V c main_arg2) (V c main_v4) (V c main_arg4) (iblk0 V c 0 t) (iblk0 V c 1 t) (iblk0 V c 2 t) (iblk0 V c 3 t) t.val
    (fun y i h0 h1 => xblk_apply V c t y i h0 h1) (wblk_eq V c t) (bblk_eq V c t) (ablk_eq V c t) j (((cfg0.win 7).blk t).view.emb j) ?_
  · show win0_7.index t (0 : Fin 2) * 2000 + 1 * (j 0).val = t.val * 2000 + (j 0).val; omega

/-- An index of window 7's array is in point t's block iff each coordinate is in the block's range on its axis. -/
theorem mem_blk7 (t : Fin cfg0.N) (i : S100000x1.Idx) :
    i ∈ ((cfg0.win 7).blk t).view.set ↔ ∀ a : Fin 2, win0_7.index t a * S2000x1.size a ≤ (i a).val ∧ (i a).val < win0_7.index t a * S2000x1.size a + S2000x1.size a := by
  show i ∈ ((View.whole main_v5_3).slice (win0_7.rect t)).set ↔ _
  rw [View.set_slice_whole, Rect.mem_set_unit]
  exact Iff.rfl

/-- Row r lies in the block of point r / 2000: the 50 blocks tile the node axis. -/
theorem cover7 (i : S100000x1.Idx) :
    ∃ t : Fin cfg0.N, (cfg0.win 7).flush t = true ∧ i ∈ ((cfg0.win 7).blk t).view.set := by
  have hi0 : (i 0).val < 100000 := (i 0).isLt
  have hi1 : (i 1).val < 1 := (i 1).isLt
  have hN : cfg0.N = 50 := N_0
  have ht : (i 0).val / 2000 < cfg0.N := by rw [hN]; omega
  refine ⟨⟨(i 0).val / 2000, ht⟩, flush0_7 _, ?_⟩
  rw [mem_blk7]
  obtain ⟨-, -, -, -, -, -, -, -, -, -, -, -, -, -, e0, e1⟩ := idx_facts0 ⟨(i 0).val / 2000, ht⟩
  have e0' : win0_7.index ⟨(i 0).val / 2000, ht⟩ (0 : Fin 2) = (i 0).val / 2000 := e0
  intro a
  match a with
  | ⟨0, _⟩ => show win0_7.index ⟨(i 0).val / 2000, ht⟩ (0 : Fin 2) * 2000 ≤ (i 0).val ∧ (i 0).val < win0_7.index ⟨(i 0).val / 2000, ht⟩ (0 : Fin 2) * 2000 + 2000; omega
  | ⟨1, _⟩ => show win0_7.index ⟨(i 0).val / 2000, ht⟩ (1 : Fin 2) * 1 ≤ (i 1).val ∧ (i 1).val < win0_7.index ⟨(i 0).val / 2000, ht⟩ (1 : Fin 2) * 1 + 1; omega

/-- feat after the region: x · Wᵀ + bias row, of the arrays the region finds. -/
theorem final0_4 (c : Dev nD) :
    (dat0 (F := Ideal) V c).arrAt 4 cfg0.N = Spec.feat (F := Ideal) (V c main_arg0) (V c main_arg2) (V c main_v4) :=
  (dat0 (F := Ideal) V c).arrAt_eq_of_cover 4 _ (fun t _ => flushed4_eq V c t) cover4

/-- The source pre-score column after the region. -/
theorem final0_5 (c : Dev nD) :
    (dat0 (F := Ideal) V c).arrAt 5 cfg0.N
      = Spec.esrc (F := Ideal) (Spec.feat (F := Ideal) (V c main_arg0) (V c main_arg2) (V c main_v4)) (V c main_arg4) :=
  (dat0 (F := Ideal) V c).arrAt_eq_of_cover 5 _ (fun t _ => flushed5_eq V c t) cover5

/-- The target pre-score column after the region. -/
theorem final0_6 (c : Dev nD) :
    (dat0 (F := Ideal) V c).arrAt 6 cfg0.N
      = Spec.etar (F := Ideal) (Spec.feat (F := Ideal) (V c main_arg0) (V c main_arg2) (V c main_v4)) (V c main_arg4) :=
  (dat0 (F := Ideal) V c).arrAt_eq_of_cover 6 _ (fun t _ => flushed6_eq V c t) cover6

/-- Every node's own un-normalised weight after the region. -/
theorem final0_7 (c : Dev nD) :
    (dat0 (F := Ideal) V c).arrAt 7 cfg0.N
      = Spec.nodeScore (F := Ideal)
          (Spec.esrc (F := Ideal) (Spec.feat (F := Ideal) (V c main_arg0) (V c main_arg2) (V c main_v4)) (V c main_arg4))
          (Spec.etar (F := Ideal) (Spec.feat (F := Ideal) (V c main_arg0) (V c main_arg2) (V c main_v4)) (V c main_arg4)) :=
  (dat0 (F := Ideal) V c).arrAt_eq_of_cover 7 _ (fun t _ => flushed7_eq V c t) cover7

end Cert.KernelIdeal.Val

end
-- ==== Proof.Regions123.lean ====
/-
  The three pointwise regions, each output array after its run as ONE function of the arrays the region finds.

  Each of these regions walks the rows of its arrays in equal blocks (160 blocks of 10000 edges, or 50 blocks of
  2000 nodes), every window at the same block index, and its body is a pointwise map of the blocks' rows (a column
  operand laid over the 128 channels of a row): the block a point writes back is the same rows of the map of the
  whole arrays, and the blocks tile the row axis, so the array ends holding that map.
-/
import proofs.«139192_j52871047413956_1_alg».proof.Proof.Gen.KernelIdeal.Frame
import proofs.«139192_j52871047413956_1_alg».proof.Proof.Gen.ReferenceIdeal
import proofs.«139192_j52871047413956_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Cert.ReferenceIdeal (Spec.edgeScore Spec.scaleRows Spec.combine)

variable (V : (c : Dev nD) → (b : Ref sig .tc) → Buf (Elt Ideal) ((c : Thread nD τ).loc b))

theorem origin2 : (![0, 0] : Fin 2 → Nat) = fun _ => 0 := funext fun a => by fin_cases a <;> rfl

/-! ## The edge scores: exp ∘ leaky of the sum of two gathered columns -/

/-- exp ∘ leaky of a sum of two extended reals: the scalar both the body and the whole-array map apply at every row. -/
def scoreAt (u v : Ideal .f32) : Ideal .f32 :=
  FloatOps.exp (Scalar.select (FloatOps.cmpf .oge (FloatOps.addf u v) (FloatOps.ofBits .f32 0x00000000#32)) (FloatOps.addf u v)
    (FloatOps.mulf (FloatOps.ofBits .f32 0x3E4CCCCD#32) (FloatOps.addf u v)))

/-- The body's payload at a row is the scalar map of its two blocks at that row. -/
theorem edgePay_apply (x0 x1 : Vec Ideal S10000x1 .f32) (j : S10000x1.Idx) :
    k1_pay1 (F := Ideal) x0 x1 j = scoreAt (x0 j) (x1 j) := by
  unfold k1_pay1
  simp only [shapeCast_self]
  rfl

/-- The whole-array edge score at a row is the same scalar map of the two columns at that row. -/
theorem edgeScore_apply (a b : FVec Ideal Cert.ReferenceIdeal.S1600000x1 .f32) (i : Cert.ReferenceIdeal.S1600000x1.Idx) :
    Spec.edgeScore (F := Ideal) a b i = scoreAt (a i) (b i) := rfl

/-- All three windows of the edge-score region sit at block row `t`, column block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the edge scores of the two gathered columns. -/
theorem flushed1_2 (c : Dev nD) (t : Fin cfg1.N) :
    (dat1 (F := Ideal) V c).flushed 2 t
      = ((cfg1.win 2).blk t).view.read (Elt Ideal) (Spec.edgeScore (F := Ideal) (V c main_v12) (V c main_v19)) := by
  show (cfg1.win 2).cut (grid1.coords t) ((dat1 V c).after 2 t) = _
  rw [after1_2]
  unfold out1_2
  rw [View.canon_unit_zero origin2]
  simp only [View.ld_unit_zero (S := S10000x1) origin2]
  obtain ⟨e0, e1, e2, e3, e4, e5⟩ := idx1 t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 1 + 1 * (j 1).val = win1_2.index t (1 : Fin 2) * 1 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * (j 1).val = win1_2.index t (1 : Fin 2) * 1 + 1 * (j 1).val; omega
  show k1_pay1 (F := Ideal) (iblk1 V c 0 t) (iblk1 V c 1 t) j
    = Spec.edgeScore (F := Ideal) (V c main_v12) (V c main_v19) (((cfg1.win 2).blk t).view.emb j)
  rw [edgePay_apply, edgeScore_apply]
  show scoreAt (V c main_v12 (((cfg1.win 0).blk t).view.emb j)) (V c main_v19 (((cfg1.win 1).blk t).view.emb j)) = _
  rw [h0, h1]

/-- An index of the edge column is in point `t`'s block iff each coordinate is in the block's range on its axis. -/
theorem mem_blk1_2 (t : Fin cfg1.N) (i : S1600000x1.Idx) :
    i ∈ ((cfg1.win 2).blk t).view.set ↔ ∀ a : Fin 2, win1_2.index t a * S10000x1.size a ≤ (i a).val ∧ (i a).val < win1_2.index t a * S10000x1.size a + S10000x1.size a := by
  show i ∈ ((View.whole main_v20).slice (win1_2.rect t)).set ↔ _
  rw [View.set_slice_whole, Rect.mem_set_unit]
  exact Iff.rfl

/-- Every edge lies in the block of the point that is its row divided by the block height. -/
theorem cover1_2' (i : S1600000x1.Idx) : ∃ t : Fin cfg1.N, (cfg1.win 2).flush t = true ∧ i ∈ ((cfg1.win 2).blk t).view.set := by
  have hi0 : (i 0).val < 1600000 := (i 0).isLt
  have hi1 : (i 1).val < 1 := (i 1).isLt
  let t : Fin cfg1.N := ⟨(i 0).val / 10000, by show (i 0).val / 10000 < 160; omega⟩
  obtain ⟨e0, e1, e2, e3, e4, e5⟩ := idx1 t
  have e4' : win1_2.index t (0 : Fin 2) = (i 0).val / 10000 := e4
  refine ⟨t, flush1_2 t, ?_⟩
  rw [mem_blk1_2]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 1 ≤ (i 1).val ∧ (i 1).val < win1_2.index t (1 : Fin 2) * 1 + 1; omega

/-- The edge scores after the region. -/
theorem final1_2 (c : Dev nD) :
    (dat1 (F := Ideal) V c).arrAt 2 cfg1.N = Spec.edgeScore (F := Ideal) (V c main_v12) (V c main_v19) :=
  (dat1 V c).arrAt_eq_of_cover 2 _ (fun t _ => flushed1_2 V c t) cover1_2'

/-! ## The scaled edge rows: every gathered row times its edge's weight -/

/-- The body's payload at (row p, channel q) is the row block there times the weight block at row p. -/
theorem scalePay_apply (x0 : Vec Ideal S10000x128 .f32) (x1 : Vec Ideal S10000x1 .f32) (j : S10000x128.Idx) (k : S10000x1.Idx)
    (hk0 : (k 0).val = (j 0).val) (hk1 : (k 1).val = 0) :
    k2_pay1 (F := Ideal) x0 x1 j = FloatOps.mulf (F := Ideal) (φ := .f32) (x0 j) (x1 k) := by
  unfold k2_pay1
  simp only [shapeCast_self]
  show FloatOps.mulf (F := Ideal) (φ := .f32) (x0 j) (broadcastTo S10000x128 x1 broadcasts_S10000x1_S10000x128 j) = _
  rw [broadcastTo_apply x1 broadcasts_S10000x1_S10000x128 j k (fun a => by
    match a with
    | ⟨0, _⟩ => exact hk0
    | ⟨1, _⟩ => exact hk1)]

/-- The whole-array scaled rows at (edge, channel) are the row there times the weight of that edge. -/
theorem scaleRows_apply (f : FVec Ideal Cert.ReferenceIdeal.S1600000x128 .f32) (a : FVec Ideal Cert.ReferenceIdeal.S1600000x1 .f32)
    (i : Cert.ReferenceIdeal.S1600000x128.Idx) (k : Cert.ReferenceIdeal.S1600000x1.Idx)
    (hk0 : (k 0).val = (i 0).val) (hk1 : (k 1).val = 0) :
    Spec.scaleRows (F := Ideal) f a i = FloatOps.mulf (F := Ideal) (φ := .f32) (f i) (a k) := by
  unfold Spec.scaleRows
  show FloatOps.mulf (F := Ideal) (φ := .f32) (f i) (broadcastInDim Cert.ReferenceIdeal.S1600000x128 ![0, 1] _ a i) = _
  rw [broadcastInDim_apply _ _ a i k (fun b => by
    match b with
    | ⟨0, _⟩ => exact hk0
    | ⟨1, _⟩ => exact hk1)]

/-- All three windows of the scaling region sit at block row `t`, column block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the gathered rows scaled by the edge weights. -/
theorem flushed2_2 (c : Dev nD) (t : Fin cfg2.N) :
    (dat2 (F := Ideal) V c).flushed 2 t
      = ((cfg2.win 2).blk t).view.read (Elt Ideal) (Spec.scaleRows (F := Ideal) (V c main_v40) (V c main_v33)) := by
  show (cfg2.win 2).cut (grid2.coords t) ((dat2 V c).after 2 t) = _
  rw [after2_2]
  unfold out2_2
  rw [View.canon_unit_zero origin2]
  simp only [View.ld_unit_zero (S := S10000x128) origin2, View.ld_unit_zero (S := S10000x1) origin2]
  obtain ⟨e0, e1, e2, e3, e4, e5⟩ := idx2 t
  funext j
  have hj0 : (j 0).val < 10000 := (j 0).isLt
  let k : S10000x1.Idx := ValueIdx.ix2 (⟨(j 0).val, hj0⟩ : Fin 10000) (⟨0, by decide⟩ : Fin 1)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  show k2_pay1 (F := Ideal) (iblk2 V c 0 t) (iblk2 V c 1 t) j
    = Spec.scaleRows (F := Ideal) (V c main_v40) (V c main_v33) (((cfg2.win 2).blk t).view.emb j)
  rw [scalePay_apply _ _ j k rfl rfl,
    scaleRows_apply _ _ (((cfg2.win 2).blk t).view.emb j) (((cfg2.win 1).blk t).view.emb k)
      (by show win2_1.index t (0 : Fin 2) * 10000 + 1 * (j 0).val = win2_2.index t (0 : Fin 2) * 10000 + 1 * (j 0).val; omega)
      (by show win2_1.index t (1 : Fin 2) * 1 + 1 * 0 = 0; omega)]
  show FloatOps.mulf (F := Ideal) (φ := .f32) (V c main_v40 (((cfg2.win 0).blk t).view.emb j)) (V c main_v33 (((cfg2.win 1).blk t).view.emb k)) = _
  rw [h0]

/-- An index of the edge rows is in point `t`'s block iff each coordinate is in the block's range on its axis. -/
theorem mem_blk2_2 (t : Fin cfg2.N) (i : S1600000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v41).slice (win2_2.rect t)).set ↔ _
  rw [View.set_slice_whole, Rect.mem_set_unit]
  exact Iff.rfl

/-- Every edge row lies in the block of the point that is its row divided by the block height. -/
theorem cover2_2' (i : S1600000x128.Idx) : ∃ t : Fin cfg2.N, (cfg2.win 2).flush t = true ∧ i ∈ ((cfg2.win 2).blk t).view.set := by
  have hi0 : (i 0).val < 1600000 := (i 0).isLt
  have hi1 : (i 1).val < 128 := (i 1).isLt
  let t : Fin cfg2.N := ⟨(i 0).val / 10000, by show (i 0).val / 10000 < 160; omega⟩
  obtain ⟨e0, e1, e2, e3, e4, e5⟩ := idx2 t
  have e4' : win2_2.index t (0 : Fin 2) = (i 0).val / 10000 := e4
  refine ⟨t, flush2_2 t, ?_⟩
  rw [mem_blk2_2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The scaled edge rows after the region. -/
theorem final2_2 (c : Dev nD) :
    (dat2 (F := Ideal) V c).arrAt 2 cfg2.N = Spec.scaleRows (F := Ideal) (V c main_v40) (V c main_v33) :=
  (dat2 V c).arrAt_eq_of_cover 2 _ (fun t _ => flushed2_2 V c t) cover2_2'

/-! ## The combine: aggregated rows plus every node's own row times its own weight -/

/-- The body's payload at (row p, channel q): the aggregated block there plus the row block there times the weight block at row p. -/
theorem combinePay_apply (x0 x1 : Vec Ideal S2000x128 .f32) (x2 : Vec Ideal S2000x1 .f32) (j : S2000x128.Idx) (k : S2000x1.Idx)
    (hk0 : (k 0).val = (j 0).val) (hk1 : (k 1).val = 0) :
    k3_pay1 (F := Ideal) x0 x1 x2 j = FloatOps.addf (F := Ideal) (φ := .f32) (x0 j) (FloatOps.mulf (F := Ideal) (φ := .f32) (x1 j) (x2 k)) := by
  unfold k3_pay1
  simp only [shapeCast_self]
  show FloatOps.addf (F := Ideal) (φ := .f32) (x0 j) (FloatOps.mulf (F := Ideal) (φ := .f32) (x1 j) (broadcastTo S2000x128 x2 broadcasts_S2000x1_S2000x128 j)) = _
  rw [broadcastTo_apply x2 broadcasts_S2000x1_S2000x128 j k (fun a => by
    match a with
    | ⟨0, _⟩ => exact hk0
    | ⟨1, _⟩ => exact hk1)]

/-- The whole-array combine at (node, channel). -/
theorem combine_apply (o f : FVec Ideal Cert.ReferenceIdeal.S100000x128 .f32) (a : FVec Ideal Cert.ReferenceIdeal.S100000x1 .f32)
    (i : Cert.ReferenceIdeal.S100000x128.Idx) (k : Cert.ReferenceIdeal.S100000x1.Idx)
    (hk0 : (k 0).val = (i 0).val) (hk1 : (k 1).val = 0) :
    Spec.combine (F := Ideal) o f a i = FloatOps.addf (F := Ideal) (φ := .f32) (o i) (FloatOps.mulf (F := Ideal) (φ := .f32) (f i) (a k)) := by
  unfold Spec.combine
  show FloatOps.addf (F := Ideal) (φ := .f32) (o i) (FloatOps.mulf (F := Ideal) (φ := .f32) (f i) (broadcastInDim Cert.ReferenceIdeal.S100000x128 ![0, 1] _ a i)) = _
  rw [broadcastInDim_apply _ _ a i k (fun b => by
    match b with
    | ⟨0, _⟩ => exact hk0
    | ⟨1, _⟩ => exact hk1)]

/-- All four windows of the combine region sit at block row `t`, column block 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the combine of the three arrays. -/
theorem flushed3_3 (c : Dev nD) (t : Fin cfg3.N) :
    (dat3 (F := Ideal) V c).flushed 3 t
      = ((cfg3.win 3).blk t).view.read (Elt Ideal) (Spec.combine (F := Ideal) (V c main_v44) (V c main_v5_0) (V c main_v25)) := by
  show (cfg3.win 3).cut (grid3.coords t) ((dat3 V c).after 3 t) = _
  rw [after3_3]
  unfold out3_3
  rw [View.canon_unit_zero origin2]
  simp only [View.ld_unit_zero (S := S2000x128) origin2, View.ld_unit_zero (S := S2000x1) origin2]
  obtain ⟨e0, e1, e2, e3, e4, e5, e6, e7⟩ := idx3 t
  funext j
  have hj0 : (j 0).val < 2000 := (j 0).isLt
  let k : S2000x1.Idx := ValueIdx.ix2 (⟨(j 0).val, hj0⟩ : Fin 2000) (⟨0, by decide⟩ : Fin 1)
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 128 + 1 * (j 1).val = win3_3.index t (1 : Fin 2) * 128 + 1 * (j 1).val; omega
  show k3_pay1 (F := Ideal) (iblk3 V c 0 t) (iblk3 V c 1 t) (iblk3 V c 2 t) j
    = Spec.combine (F := Ideal) (V c main_v44) (V c main_v5_0) (V c main_v25) (((cfg3.win 3).blk t).view.emb j)
  rw [combinePay_apply _ _ _ j k rfl rfl,
    combine_apply _ _ _ (((cfg3.win 3).blk t).view.emb j) (((cfg3.win 2).blk t).view.emb k)
      (by show win3_2.index t (0 : Fin 2) * 2000 + 1 * (j 0).val = win3_3.index t (0 : Fin 2) * 2000 + 1 * (j 0).val; omega)
      (by show win3_2.index t (1 : Fin 2) * 1 + 1 * 0 = 0; omega)]
  show FloatOps.addf (F := Ideal) (φ := .f32) (V c main_v44 (((cfg3.win 0).blk t).view.emb j))
      (FloatOps.mulf (F := Ideal) (φ := .f32) (V c main_v5_0 (((cfg3.win 1).blk t).view.emb j)) (V c main_v25 (((cfg3.win 2).blk t).view.emb k))) = _
  rw [h0, h1]

/-- An index of the result is in point `t`'s block iff each coordinate is in the block's range on its axis. -/
theorem mem_blk3_3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v45).slice (win3_3.rect t)).set ↔ _
  rw [View.set_slice_whole, Rect.mem_set_unit]
  exact Iff.rfl

/-- Every node row lies in the block of the point that is its row divided by the block height. -/
theorem cover3_3' (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 2000, by show (i 0).val / 2000 < 50; omega⟩
  obtain ⟨e0, e1, e2, e3, e4, e5, e6, e7⟩ := idx3 t
  have e6' : win3_3.index t (0 : Fin 2) = (i 0).val / 2000 := e6
  refine ⟨t, flush3_3 t, ?_⟩
  rw [mem_blk3_3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The layer's result after the last region. -/
theorem final3_3 (c : Dev nD) :
    (dat3 (F := Ideal) V c).arrAt 3 cfg3.N = Spec.combine (F := Ideal) (V c main_v44) (V c main_v5_0) (V c main_v25) :=
  (dat3 V c).arrAt_eq_of_cover 3 _ (fun t _ => flushed3_3 V c t) cover3_3'

end Cert.KernelIdeal.Val

end
-- ==== Proof.Chain.lean ====
/-
  The kernel program's result as the layer of its arguments.

  @main is four host stretches alternating with four regions.  Walking the boundaries forward, every buffer a later
  step reads is named in closed form: after the first stretch the two rows of the edge list and the bias row; after
  the node projection feat, the two pre-score columns and the nodes' own weights; after the second stretch the two
  gathered columns; after the edge-score region the edges' weights; after the third stretch the nodes' and the
  edges' normalised weights and the gathered rows; after the scaling region the weighted rows; after the fourth
  stretch their sum per node; after the combine region the result.  A host stretch applies the same operations the
  layer is written with, a region's array is the whole-array map its value lemma names, and a buffer nobody writes
  keeps its contents.
-/
import proofs.«139192_j52871047413956_1_alg».proof.Proof.Gen.KernelIdeal.Frame
import proofs.«139192_j52871047413956_1_alg».proof.Proof.Gen.ReferenceIdeal
import proofs.«139192_j52871047413956_1_alg».proof.Proof.Spec
import proofs.«139192_j52871047413956_1_alg».proof.Proof.Region0
import proofs.«139192_j52871047413956_1_alg».proof.Proof.Regions123
import Idealize.ShloMosaic.Lib.StableHlo.Run
import Idealize.ShloMosaic.Lib.Pipeline.Value
import Idealize.ShloMosaic.PureOps.Ideal

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal (Spec.tarOf Spec.srcOf Spec.biasRow Spec.feat Spec.esrc Spec.etar Spec.nodeScore Spec.edgeScore
  Spec.scaleRows Spec.combine Spec.gatherCol Spec.gatherRows Spec.segSumCol Spec.segSumRows Spec.eedge Spec.esum Spec.alpha
  Spec.alphaSelf Spec.tailOut Spec.out Spec.nidx Spec.cidx)

variable (m : (ℓ : Loc nD τ sig) → Buf (Elt Ideal) ℓ) (ρ : Dev nD → PrngReg)

-- the gathers, the scatter-adds and the matrix products are compared by their operands, never opened
attribute [local irreducible] Host.gather Host.scatterAdd

/-- A vector of 128 entries recast as one row is that vector laid along the row. -/
theorem biasRow_eq (b : FVec Ideal S128 .f32) (h : S128.ShapeCasts S1x128) :
    shapeCast S1x128 b h = Spec.biasRow (F := Ideal) b := by
  funext j
  have hj0 : (j 0).val < 1 := (j 0).isLt
  have hj1 : (j 1).val < 128 := (j 1).isLt
  let k : S128.Idx := ValueIdx.ix1 (⟨(j 1).val, hj1⟩ : Fin 128)
  unfold Spec.biasRow
  refine (shapeCast_apply b h j k ?_).trans (broadcastInDim_apply _ _ b j k ?_).symm
  · rw [Shape.rowMajor_val_one, Shape.rowMajor_val_two]
    show (j 1).val = (j 0).val * 128 + (j 1).val
    omega
  · intro a
    match a with
    | ⟨0, _⟩ => rfl

/-! ## The arguments of the layer, as the launch memory holds them -/

abbrev X (c : Dev nD) : FVec Ideal S100000x256 .f32 := m ((c : Thread nD τ).loc main_arg0)
abbrev EI (c : Dev nD) : IVec S2x1600000 32 := m ((c : Thread nD τ).loc main_arg1)
abbrev Wt (c : Dev nD) : FVec Ideal S128x256 .f32 := m ((c : Thread nD τ).loc main_arg2)
abbrev Bs (c : Dev nD) : FVec Ideal S128 .f32 := m ((c : Thread nD τ).loc main_arg3)
abbrev At (c : Dev nD) : FVec Ideal S128x2 .f32 := m ((c : Thread nD τ).loc main_arg4)

/-- feat of the arguments. -/
abbrev FT (c : Dev nD) : FVec Ideal S100000x128 .f32 := Spec.feat (F := Ideal) (X m c) (Wt m c) (Spec.biasRow (F := Ideal) (Bs m c))
/-- The source pre-scores of the arguments. -/
abbrev ES (c : Dev nD) : FVec Ideal S100000x1 .f32 := Spec.esrc (F := Ideal) (FT m c) (At m c)
/-- The target pre-scores of the arguments. -/
abbrev ET (c : Dev nD) : FVec Ideal S100000x1 .f32 := Spec.etar (F := Ideal) (FT m c) (At m c)
/-- The nodes' own weights of the arguments. -/
abbrev SELF (c : Dev nD) : FVec Ideal S100000x1 .f32 := Spec.nodeScore (F := Ideal) (ES m c) (ET m c)

/-! ## After the first host stretch -/

theorem w1_arg0 (c : Dev nD) : W1 m ρ c (Proc.devRef .tc main_arg0) = X m c := by
  show StableHlo.after hostOps0 (W0 m ρ c) (Proc.devRef .tc main_arg0) = _
  dsimp only [hostOps0]; after_results
theorem w1_arg2 (c : Dev nD) : W1 m ρ c (Proc.devRef .tc main_arg2) = Wt m c := by
  show StableHlo.after hostOps0 (W0 m ρ c) (Proc.devRef .tc main_arg2) = _
  dsimp only [hostOps0]; after_results
theorem w1_arg4 (c : Dev nD) : W1 m ρ c (Proc.devRef .tc main_arg4) = At m c := by
  show StableHlo.after hostOps0 (W0 m ρ c) (Proc.devRef .tc main_arg4) = _
  dsimp only [hostOps0]; after_results
theorem w1_v1 (c : Dev nD) : W1 m ρ c (Proc.devRef .tc main_v1) = Spec.tarOf (EI m c) := by
  show StableHlo.after hostOps0 (W0 m ρ c) (Proc.devRef .tc main_v1) = _
  dsimp only [hostOps0]; after_results; rfl
theorem w1_v3 (c : Dev nD) : W1 m ρ c (Proc.devRef .tc main_v3) = Spec.srcOf (EI m c) := by
  show StableHlo.after hostOps0 (W0 m ρ c) (Proc.devRef .tc main_v3) = _
  dsimp only [hostOps0]; after_results; rfl
theorem w1_v4 (c : Dev nD) : W1 m ρ c (Proc.devRef .tc main_v4) = Spec.biasRow (F := Ideal) (Bs m c) := by
  show StableHlo.after hostOps0 (W0 m ρ c) (Proc.devRef .tc main_v4) = _
  dsimp only [hostOps0]; after_results
  exact biasRow_eq (Bs m c) _

/-! ## After the node projection -/

theorem w2_v5_0 (c : Dev nD) : W2 m ρ c (Proc.devRef .tc main_v5_0) = FT m c := by
  refine (W2_arr m ρ c 4).trans ((final0_4 (V1 m ρ) c).trans ?_)
  show Spec.feat (F := Ideal) (W1 m ρ c (Proc.devRef .tc main_arg0)) (W1 m ρ c (Proc.devRef .tc main_arg2)) (W1 m ρ c (Proc.devRef .tc main_v4)) = _
  rw [w1_arg0, w1_arg2, w1_v4]
theorem w2_v5_1 (c : Dev nD) : W2 m ρ c (Proc.devRef .tc main_v5_1) = ES m c := by
  refine (W2_arr m ρ c 5).trans ((final0_5 (V1 m ρ) c).trans ?_)
  show Spec.esrc (F := Ideal) (Spec.feat (F := Ideal) (W1 m ρ c (Proc.devRef .tc main_arg0)) (W1 m ρ c (Proc.devRef .tc main_arg2)) (W1 m ρ c (Proc.devRef .tc main_v4))) (W1 m ρ c (Proc.devRef .tc main_arg4)) = _
  rw [w1_arg0, w1_arg2, w1_v4, w1_arg4]
theorem w2_v5_2 (c : Dev nD) : W2 m ρ c (Proc.devRef .tc main_v5_2) = ET m c := by
  refine (W2_arr m ρ c 6).trans ((final0_6 (V1 m ρ) c).trans ?_)
  show Spec.etar (F := Ideal) (Spec.feat (F := Ideal) (W1 m ρ c (Proc.devRef .tc main_arg0)) (W1 m ρ c (Proc.devRef .tc main_arg2)) (W1 m ρ c (Proc.devRef .tc main_v4))) (W1 m ρ c (Proc.devRef .tc main_arg4)) = _
  rw [w1_arg0, w1_arg2, w1_v4, w1_arg4]
theorem w2_v5_3 (c : Dev nD) : W2 m ρ c (Proc.devRef .tc main_v5_3) = SELF m c := by
  refine (W2_arr m ρ c 7).trans ((final0_7 (V1 m ρ) c).trans ?_)
  show Spec.nodeScore (F := Ideal)
      (Spec.esrc (F := Ideal) (Spec.feat (F := Ideal) (W1 m ρ c (Proc.devRef .tc main_arg0)) (W1 m ρ c (Proc.devRef .tc main_arg2)) (W1 m ρ c (Proc.devRef .tc main_v4))) (W1 m ρ c (Proc.devRef .tc main_arg4)))
      (Spec.etar (F := Ideal) (Spec.feat (F := Ideal) (W1 m ρ c (Proc.devRef .tc main_arg0)) (W1 m ρ c (Proc.devRef .tc main_arg2)) (W1 m ρ c (Proc.devRef .tc main_v4))) (W1 m ρ c (Proc.devRef .tc main_arg4))) = _
  rw [w1_arg0, w1_arg2, w1_v4, w1_arg4]
theorem w2_v1 (c : Dev nD) : W2 m ρ c (Proc.devRef .tc main_v1) = Spec.tarOf (EI m c) :=
  (W2_of_ne m ρ c main_v1 (by decide)).trans (w1_v1 m ρ c)
theorem w2_v3 (c : Dev nD) : W2 m ρ c (Proc.devRef .tc main_v3) = Spec.srcOf (EI m c) :=
  (W2_of_ne m ρ c main_v3 (by decide)).trans (w1_v3 m ρ c)

/-! ## After the second host stretch -/

theorem w3_v12 (c : Dev nD) : W3 m ρ c (Proc.devRef .tc main_v12) = Spec.gatherCol (F := Ideal) (ES m c) (Spec.srcOf (EI m c)) := by
  show StableHlo.after hostOps1 (W2 m ρ c) (Proc.devRef .tc main_v12) = _
  dsimp only [hostOps1]; after_results
  rw [w2_v5_1, w2_v3]; rfl
theorem w3_v19 (c : Dev nD) : W3 m ρ c (Proc.devRef .tc main_v19) = Spec.gatherCol (F := Ideal) (ET m c) (Spec.tarOf (EI m c)) := by
  show StableHlo.after hostOps1 (W2 m ρ c) (Proc.devRef .tc main_v19) = _
  dsimp only [hostOps1]; after_results
  rw [w2_v5_2, w2_v1]; rfl
theorem w3_v1 (c : Dev nD) : W3 m ρ c (Proc.devRef .tc main_v1) = Spec.tarOf (EI m c) := by
  show StableHlo.after hostOps1 (W2 m ρ c) (Proc.devRef .tc main_v1) = _
  dsimp only [hostOps1]; after_results
  exact w2_v1 m ρ c
theorem w3_v3 (c : Dev nD) : W3 m ρ c (Proc.devRef .tc main_v3) = Spec.srcOf (EI m c) := by
  show StableHlo.after hostOps1 (W2 m ρ c) (Proc.devRef .tc main_v3) = _
  dsimp only [hostOps1]; after_results
  exact w2_v3 m ρ c
theorem w3_v5_0 (c : Dev nD) : W3 m ρ c (Proc.devRef .tc main_v5_0) = FT m c := by
  show StableHlo.after hostOps1 (W2 m ρ c) (Proc.devRef .tc main_v5_0) = _
  dsimp only [hostOps1]; after_results
  exact w2_v5_0 m ρ c
theorem w3_v5_3 (c : Dev nD) : W3 m ρ c (Proc.devRef .tc main_v5_3) = SELF m c := by
  show StableHlo.after hostOps1 (W2 m ρ c) (Proc.devRef .tc main_v5_3) = _
  dsimp only [hostOps1]; after_results
  exact w2_v5_3 m ρ c

/-! ## After the edge-score region -/

theorem w4_v20 (c : Dev nD) : W4 m ρ c (Proc.devRef .tc main_v20) = Spec.eedge (F := Ideal) (ES m c) (ET m c) (EI m c) := by
  refine (W4_arr m ρ c 2).trans ((final1_2 (V3 m ρ) c).trans ?_)
  show Spec.edgeScore (F := Ideal) (W3 m ρ c (Proc.devRef .tc main_v12)) (W3 m ρ c (Proc.devRef .tc main_v19)) = _
  rw [w3_v12, w3_v19]; rfl
theorem w4_v1 (c : Dev nD) : W4 m ρ c (Proc.devRef .tc main_v1) = Spec.tarOf (EI m c) :=
  (W4_of_ne m ρ c main_v1 (by decide)).trans (w3_v1 m ρ c)
theorem w4_v3 (c : Dev nD) : W4 m ρ c (Proc.devRef .tc main_v3) = Spec.srcOf (EI m c) :=
  (W4_of_ne m ρ c main_v3 (by decide)).trans (w3_v3 m ρ c)
theorem w4_v5_0 (c : Dev nD) : W4 m ρ c (Proc.devRef .tc main_v5_0) = FT m c :=
  (W4_of_ne m ρ c main_v5_0 (by decide)).trans (w3_v5_0 m ρ c)
theorem w4_v5_3 (c : Dev nD) : W4 m ρ c (Proc.devRef .tc main_v5_3) = SELF m c :=
  (W4_of_ne m ρ c main_v5_3 (by decide)).trans (w3_v5_3 m ρ c)

/-! ## After the third host stretch -/

set_option maxHeartbeats 4000000 in
theorem w5_v25 (c : Dev nD) : W5 m ρ c (Proc.devRef .tc main_v25) = Spec.alphaSelf (F := Ideal) (ES m c) (ET m c) (SELF m c) (EI m c) := by
  show StableHlo.after hostOps2 (W4 m ρ c) (Proc.devRef .tc main_v25) = _
  dsimp only [hostOps2]; after_results_simp
  rw [w4_v5_3, w4_v20, w4_v1]; rfl
set_option maxHeartbeats 4000000 in
theorem w5_v33 (c : Dev nD) : W5 m ρ c (Proc.devRef .tc main_v33) = Spec.alpha (F := Ideal) (ES m c) (ET m c) (SELF m c) (EI m c) := by
  show StableHlo.after hostOps2 (W4 m ρ c) (Proc.devRef .tc main_v33) = _
  dsimp only [hostOps2]; after_results_simp
  rw [w4_v5_3, w4_v20, w4_v1]; rfl
set_option maxHeartbeats 4000000 in
theorem w5_v40 (c : Dev nD) : W5 m ρ c (Proc.devRef .tc main_v40) = Spec.gatherRows (F := Ideal) (FT m c) (Spec.srcOf (EI m c)) := by
  show StableHlo.after hostOps2 (W4 m ρ c) (Proc.devRef .tc main_v40) = _
  dsimp only [hostOps2]; after_results_simp
  rw [w4_v5_0, w4_v3]; rfl
set_option maxHeartbeats 4000000 in
theorem w5_v1 (c : Dev nD) : W5 m ρ c (Proc.devRef .tc main_v1) = Spec.tarOf (EI m c) := by
  show StableHlo.after hostOps2 (W4 m ρ c) (Proc.devRef .tc main_v1) = _
  dsimp only [hostOps2]; after_results_simp
  exact w4_v1 m ρ c
set_option maxHeartbeats 4000000 in
theorem w5_v5_0 (c : Dev nD) : W5 m ρ c (Proc.devRef .tc main_v5_0) = FT m c := by
  show StableHlo.after hostOps2 (W4 m ρ c) (Proc.devRef .tc main_v5_0) = _
  dsimp only [hostOps2]; after_results_simp
  exact w4_v5_0 m ρ c

/-! ## After the scaling region -/

theorem w6_v41 (c : Dev nD) : W6 m ρ c (Proc.devRef .tc main_v41)
    = Spec.scaleRows (F := Ideal) (Spec.gatherRows (F := Ideal) (FT m c) (Spec.srcOf (EI m c))) (Spec.alpha (F := Ideal) (ES m c) (ET m c) (SELF m c) (EI m c)) := by
  refine (W6_arr m ρ c 2).trans ((final2_2 (V5 m ρ) c).trans ?_)
  show Spec.scaleRows (F := Ideal) (W5 m ρ c (Proc.devRef .tc main_v40)) (W5 m ρ c (Proc.devRef .tc main_v33)) = _
  rw [w5_v40, w5_v33]
theorem w6_v1 (c : Dev nD) : W6 m ρ c (Proc.devRef .tc main_v1) = Spec.tarOf (EI m c) :=
  (W6_of_ne m ρ c main_v1 (by decide)).trans (w5_v1 m ρ c)
theorem w6_v5_0 (c : Dev nD) : W6 m ρ c (Proc.devRef .tc main_v5_0) = FT m c :=
  (W6_of_ne m ρ c main_v5_0 (by decide)).trans (w5_v5_0 m ρ c)
theorem w6_v25 (c : Dev nD) : W6 m ρ c (Proc.devRef .tc main_v25) = Spec.alphaSelf (F := Ideal) (ES m c) (ET m c) (SELF m c) (EI m c) :=
  (W6_of_ne m ρ c main_v25 (by decide)).trans (w5_v25 m ρ c)

/-! ## After the fourth host stretch -/

theorem w7_v44 (c : Dev nD) : W7 m ρ c (Proc.devRef .tc main_v44)
    = Spec.segSumRows (F := Ideal) (Spec.tarOf (EI m c))
        (Spec.scaleRows (F := Ideal) (Spec.gatherRows (F := Ideal) (FT m c) (Spec.srcOf (EI m c))) (Spec.alpha (F := Ideal) (ES m c) (ET m c) (SELF m c) (EI m c))) := by
  show StableHlo.after hostOps3 (W6 m ρ c) (Proc.devRef .tc main_v44) = _
  dsimp only [hostOps3]; after_results
  rw [w6_v1, w6_v41]; rfl
theorem w7_v5_0 (c : Dev nD) : W7 m ρ c (Proc.devRef .tc main_v5_0) = FT m c := by
  show StableHlo.after hostOps3 (W6 m ρ c) (Proc.devRef .tc main_v5_0) = _
  dsimp only [hostOps3]; after_results
  exact w6_v5_0 m ρ c
theorem w7_v25 (c : Dev nD) : W7 m ρ c (Proc.devRef .tc main_v25) = Spec.alphaSelf (F := Ideal) (ES m c) (ET m c) (SELF m c) (EI m c) := by
  show StableHlo.after hostOps3 (W6 m ρ c) (Proc.devRef .tc main_v25) = _
  dsimp only [hostOps3]; after_results
  exact w6_v25 m ρ c

/-! ## After the combine region: the result -/

/-- The result buffer at the last boundary holds the layer of the arguments. -/
theorem w8_v45 (c : Dev nD) : W8 m ρ c (Proc.devRef .tc main_v45)
    = Spec.out (F := Ideal) (X m c) (EI m c) (Wt m c) (Bs m c) (At m c) := by
  refine (W8_arr m ρ c 3).trans ((final3_3 (V7 m ρ) c).trans ?_)
  show Spec.combine (F := Ideal) (W7 m ρ c (Proc.devRef .tc main_v44)) (W7 m ρ c (Proc.devRef .tc main_v5_0)) (W7 m ρ c (Proc.devRef .tc main_v25)) = _
  rw [w7_v44, w7_v5_0, w7_v25]
  rfl

end Cert.KernelIdeal.Val

end
-- ==== Proof.RefRun.lean ====
/-
  The reference's run, read back: its @main is a straight line of host operations (the two leaky-relu calls
  run their callees' operations in place), so every weakly fair execution ends with the result buffer at the
  operations' composed term of the arguments, which is the layer `Spec.out`, and with the arguments unchanged.
-/
import proofs.«139192_j52871047413956_1_alg».proof.Proof.Gen.ReferenceIdeal
import proofs.«139192_j52871047413956_1_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's eighty-four operations in order, the calls unfolded. Each leaky-relu call is seven: the scalar zero, its
    broadcast, the comparison of the argument with it, the slope converted to its own type, its broadcast, the
    product of the slope with the argument, and the select between the argument and that product; the first runs
    over the edges' buffers, the second over the nodes'. Around them @main's own seventy. -/
abbrev ops : List (HloOp τ sig (Elt F)) :=
  [
    unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg2 main_v4 ((transpose S256x128 [1, 0] · transposes_S128x256_S256x128_1_0) : (⟨S128x256, .f32⟩ : BufTy).Contents (Elt F) → (⟨S256x128, .f32⟩ : BufTy).Contents (Elt F)),
    binary main_arg0 main_v4 main_v5 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    binary main_v8 main_arg4 main_v9 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_v9 main_v10 ((extractStridedSlice S100000x1 ![0, 0] · slices_S100000x2_S100000x1_0_0) : (⟨S100000x2, .f32⟩ : BufTy).Contents (Elt F) → (⟨S100000x1, .f32⟩ : BufTy).Contents (Elt F)),
    unary main_v9 main_v11 ((extractStridedSlice S100000x1 ![0, 1] · slices_S100000x2_S100000x1_0_1) : (⟨S100000x2, .f32⟩ : BufTy).Contents (Elt F) → (⟨S100000x1, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v3 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v14 (broadcastInDim S1600000 ![] bcast_S_S1600000 : (⟨S_, .i32⟩ : BufTy).Contents (Elt F) → (⟨S1600000, .i32⟩ : BufTy).Contents (Elt F)),
    binary main_v3 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v3 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v10 main_v17 main_v18 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_v1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_v1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    binary main_v18 main_v25 main_v26 (addf : (⟨S1600000x1, .f32⟩ : BufTy).Contents (Elt F) → (⟨S1600000x1, .f32⟩ : BufTy).Contents (Elt F) → (⟨S1600000x1, .f32⟩ : BufTy).Contents (Elt F)),
    nullary main_cst (constant S_ .f32 0x3E4CCCCD#32),
    TRef.nullary main_call0.cst (constant S_ .f32 0x00000000#32),
    TRef.unary main_call0.cst main_call0.v0 (broadcastInDim S1600000x1 ![] bcast_S_S1600000x1),
    TRef.binary (.of main_v26 : TRef sig ⟨S1600000x1, .f32⟩) main_call0.v0 main_call0.v1 (cmpf .oge),
    TRef.unary (.of main_cst : TRef sig ⟨S_, .f32⟩) main_call0.v2 id,
    TRef.unary main_call0.v2 main_call0.v3 (broadcastInDim S1600000x1 ![] bcast_S_S1600000x1),
    TRef.binary main_call0.v3 (.of main_v26 : TRef sig ⟨S1600000x1, .f32⟩) main_call0.v4 mulf,
    TRef.ternary main_call0.v1 (.of main_v26 : TRef sig ⟨S1600000x1, .f32⟩) main_call0.v4 main_call0.call0.v0 select,
    unary main_v27 main_v28 (Host.exp : (⟨S1600000x1, .f32⟩ : BufTy).Contents (Elt F) → (⟨S1600000x1, .f32⟩ : BufTy).Contents (Elt F)),
    binary main_v10 main_v11 main_v29 (addf : (⟨S100000x1, .f32⟩ : BufTy).Contents (Elt F) → (⟨S100000x1, .f32⟩ : BufTy).Contents (Elt F) → (⟨S100000x1, .f32⟩ : BufTy).Contents (Elt F)),
    nullary main_cst_3 (constant S_ .f32 0x3E4CCCCD#32),
    TRef.nullary main_call1.cst (constant S_ .f32 0x00000000#32),
    TRef.unary main_call1.cst main_call1.v0 (broadcastInDim S100000x1 ![] bcast_S_S100000x1),
    TRef.binary (.of main_v29 : TRef sig ⟨S100000x1, .f32⟩) main_call1.v0 main_call1.v1 (cmpf .oge),
    TRef.unary (.of main_cst_3 : TRef sig ⟨S_, .f32⟩) main_call1.v2 id,
    TRef.unary main_call1.v2 main_call1.v3 (broadcastInDim S100000x1 ![] bcast_S_S100000x1),
    TRef.binary main_call1.v3 (.of main_v29 : TRef sig ⟨S100000x1, .f32⟩) main_call1.v4 mulf,
    TRef.ternary main_call1.v1 (.of main_v29 : TRef sig ⟨S100000x1, .f32⟩) main_call1.v4 main_call1.call0.v0 select,
    unary main_v30 main_v31 (Host.exp : (⟨S100000x1, .f32⟩ : BufTy).Contents (Elt F) → (⟨S100000x1, .f32⟩ : BufTy).Contents (Elt F)),
    nullary main_cst_4 (constant S_ .f32 0x00000000#32),
    unary main_cst_4 main_v32 (broadcastInDim S100000x1 ![] bcast_S_S100000x1 : (⟨S_, .f32⟩ : BufTy).Contents (Elt F) → (⟨S100000x1, .f32⟩ : BufTy).Contents (Elt F)),
    unary main_v1 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v28 main_v34 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    binary main_v34 main_v31 main_v35 (addf : (⟨S100000x1, .f32⟩ : BufTy).Contents (Elt F) → (⟨S100000x1, .f32⟩ : BufTy).Contents (Elt F) → (⟨S100000x1, .f32⟩ : BufTy).Contents (Elt F)),
    binary main_v31 main_v35 main_v36 (Host.divf : (⟨S100000x1, .f32⟩ : BufTy).Contents (Elt F) → (⟨S100000x1, .f32⟩ : BufTy).Contents (Elt F) → (⟨S100000x1, .f32⟩ : BufTy).Contents (Elt F)),
    nullary main_c_5 (constantI S_ 32 0#32),
    unary main_c_5 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v35 main_v42 main_v43 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    binary main_v28 main_v43 main_v44 (Host.divf : (⟨S1600000x1, .f32⟩ : BufTy).Contents (Elt F) → (⟨S1600000x1, .f32⟩ : BufTy).Contents (Elt F) → (⟨S1600000x1, .f32⟩ : BufTy).Contents (Elt F)),
    nullary main_c_7 (constantI S_ 32 0#32),
    unary main_c_7 main_v45 (broadcastInDim S1600000 ![] bcast_S_S1600000 : (⟨S_, .i32⟩ : BufTy).Contents (Elt F) → (⟨S1600000, .i32⟩ : BufTy).Contents (Elt F)),
    binary main_v3 main_v45 main_v46 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v47 (broadcastInDim S1600000 ![] bcast_S_S1600000 : (⟨S_, .i32⟩ : BufTy).Contents (Elt F) → (⟨S1600000, .i32⟩ : BufTy).Contents (Elt F)),
    binary main_v3 main_v47 main_v48 (addi : (⟨S1600000, .i32⟩ : BufTy).Contents (Elt F) → (⟨S1600000, .i32⟩ : BufTy).Contents (Elt F) → (⟨S1600000, .i32⟩ : BufTy).Contents (Elt F)),
    ternary main_v46 main_v48 main_v3 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v49 main_v50 (broadcastInDim S1600000x1 ![0] bcast_S1600000_S1600000x1_0 : (⟨S1600000, .i32⟩ : BufTy).Contents (Elt F) → (⟨S1600000x1, .i32⟩ : BufTy).Contents (Elt F)),
    binary main_v8 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v44 main_v52 (broadcastInDim S1600000x128 ![0, 1] bcast_S1600000x1_S1600000x128_0_1 : (⟨S1600000x1, .f32⟩ : BufTy).Contents (Elt F) → (⟨S1600000x128, .f32⟩ : BufTy).Contents (Elt F)),
    binary main_v51 main_v52 main_v53 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v54 (broadcastInDim S100000x128 ![] bcast_S_S100000x128 : (⟨S_, .f32⟩ : BufTy).Contents (Elt F) → (⟨S100000x128, .f32⟩ : BufTy).Contents (Elt F)),
    unary main_v1 main_v55 (broadcastInDim S1600000x1 ![0] bcast_S1600000_S1600000x1_0 : (⟨S1600000, .i32⟩ : BufTy).Contents (Elt F) → (⟨S1600000x1, .i32⟩ : BufTy).Contents (Elt F)),
    ternary main_v54 main_v55 main_v53 main_v56 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v36 main_v57 (broadcastInDim S100000x128 ![0, 1] bcast_S100000x1_S100000x128_0_1 : (⟨S100000x1, .f32⟩ : BufTy).Contents (Elt F) → (⟨S100000x128, .f32⟩ : BufTy).Contents (Elt F)),
    binary main_v8 main_v57 main_v58 (mulf : (⟨S100000x128, .f32⟩ : BufTy).Contents (Elt F) → (⟨S100000x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)) ]

set_option maxRecDepth 4096 in
set_option maxHeartbeats 4000000 in
/-- @main is that straight line: the two windows in order, the callees' definitions unfolded at their calls and the
    records at their fields; both sides are one chain of steps once sequencing is re-associated. -/
theorem main_eq (c : Dev nD) : main (F := F) c = seq ops := by
  simp only [main, main_part0, main_part1, fn_leaky_relu.body, fn_where.body, fn_leaky_relu_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., reshape_bufs_sub .., unary_bufs_sub .., reshape_bufs_sub .., unary_bufs_sub .., binary_bufs_sub ..,
    unary_bufs_sub .., unary_bufs_sub .., binary_bufs_sub .., binary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., nullary_bufs_sub .., unary_bufs_sub .., unary_bufs_sub .., ternary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., binary_bufs_sub .., binary_bufs_sub ..⟩

/-- Every weakly fair execution of @main terminates, and every final state has each buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the buffers hold after the line -/

section Values

attribute [local irreducible] Host.gather Host.scatterAdd

set_option maxRecDepth 8192 in
set_option maxHeartbeats 4000000 in
/-- The fold at the result buffer is the layer: each operation's result at its own buffer is its function of its
    operands' contents and at any other buffer what was there, so the fold is the operations' composed term of the
    arguments' contents; the layer's definitions unfolded, the two terms are the same composition (a typed
    reference's transport is the identity at a literal reference, a reshape's is the shape cast). The gathers and
    the scatter-adds stay folded: the equation never looks inside them. -/
theorem out_eq (V : Valuation τ sig (Elt F)) :
    after ops V (main_v59 : DevRef τ sig)
      = Spec.out (F := F) (V (main_arg0 : DevRef τ sig)) (V (main_arg1 : DevRef τ sig)) (V (main_arg2 : DevRef τ sig))
          (V (main_arg3 : DevRef τ sig)) (V (main_arg4 : DevRef τ sig)) := by
  after_results_simp
  simp only [Spec.out, Spec.tailOut, Spec.alphaSelf, Spec.alpha, Spec.esum, Spec.eedge, Spec.segSumRows, Spec.segSumCol, Spec.gatherRows,
    Spec.gatherCol, Spec.combine, Spec.scaleRows, Spec.edgeScore, Spec.nodeScore, Spec.etar, Spec.esrc, Spec.epre, Spec.feat,
    Spec.biasRow, Spec.cidx, Spec.nidx, Spec.srcOf, Spec.tarOf]
  rfl

end Values

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- Every weakly fair execution of the reference terminates with its result at the layer of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = Spec.out (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v59).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

end Cert.ReferenceIdeal.Hand

end
-- ==== Proof.lean ====
/-
  A graph-attention layer over 100000 nodes and 1600000 edges: the kernel program (a node projection, an
  edge-score map, a row scaling and a final combine as four pipelined regions, with the gathers and the per-node
  sums on the host between them) against the plain reference.

  Both programs are the same composition: feat = x · Wᵀ + b, the two pre-score columns of feat · att,
  exp ∘ leaky of their gathered sums per edge and of their sum per node, the per-node sums of the edge weights plus
  the node's own, the two quotients, the gathered rows scaled per edge and summed per node, plus every node's own
  row times its own normalised weight.  The kernel cuts the node and edge axes into blocks and narrows its matrix
  operands to bf16, which at the ideal instance is the identity; a matrix product is row-local and the other three
  bodies are pointwise, so every region's array ends holding the whole-array map of what it found, and between the
  regions the kernel program applies to those arrays the very host operations the reference applies.  Both results
  are therefore the one function `Spec.out` of the arguments, and agree on arguments that agree.  No law of the
  extended reals beyond reindexing a finite sum is used, so the precondition is never opened.

  The three frames: the two kernel programs' by their generated frame certificates, the reference's by its run.
  The idealisation rewrote nothing, so `preserves` is trivial.
-/
import proofs.«139192_j52871047413956_1_alg».proof.Defs
import proofs.«139192_j52871047413956_1_alg».proof.Proof.Gen.Kernel
import proofs.«139192_j52871047413956_1_alg».proof.Proof.Gen.Kernel.Skeleton
import proofs.«139192_j52871047413956_1_alg».proof.Proof.Gen.Kernel.Launch
import proofs.«139192_j52871047413956_1_alg».proof.Proof.Gen.Kernel.Points
import proofs.«139192_j52871047413956_1_alg».proof.Proof.Gen.Kernel.Frame
import proofs.«139192_j52871047413956_1_alg».proof.Proof.Gen.KernelIdeal
import proofs.«139192_j52871047413956_1_alg».proof.Proof.Gen.KernelIdeal.Skeleton
import proofs.«139192_j52871047413956_1_alg».proof.Proof.Gen.KernelIdeal.Launch
import proofs.«139192_j52871047413956_1_alg».proof.Proof.Gen.KernelIdeal.Points
import proofs.«139192_j52871047413956_1_alg».proof.Proof.Gen.KernelIdeal.Frame
import proofs.«139192_j52871047413956_1_alg».proof.Proof.Gen.ReferenceIdeal
import proofs.«139192_j52871047413956_1_alg».proof.Proof.Gen.Pre_finite_inputs
import proofs.«139192_j52871047413956_1_alg».proof.Proof.Spec
import proofs.«139192_j52871047413956_1_alg».proof.Proof.KernelRun
import proofs.«139192_j52871047413956_1_alg».proof.Proof.Chain
import proofs.«139192_j52871047413956_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end with the result at the layer `Spec.out` of the arguments; the arguments agree. -/
theorem algebraic : Cert.algebraic_KernelIdeal_ReferenceIdeal := by
  intro m ρ m' ρ' _ hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Val.w8_v45 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
